-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 10
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .hbm, ⟨9, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S400x64, .f32⟩
  | .local _ .vmem, ⟨10, _⟩ => ⟨S400x64, .f32⟩
  | .local _ .vmem, ⟨11, _⟩ => ⟨S10000x128, .f32⟩
  | .local _ .vmem, ⟨12, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v20 : BitVec 32 := Scalar.muli arg0 c400_i32
  let v21 : Index := Scalar.indexCast v20
  let c0_13 : Index := 0#32
  ![v21.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let v1 : BitVec 32 := Scalar.subi arg0 c25_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let v1 : BitVec 32 := Scalar.subi arg0 c25_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S10000x64.size a
  hwx0_7 : ∀ i : grid0.Coords, EltTy.bits .f32 = 32 ∨ (Rect.block (s := S10000x64) S400x64.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S400x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond3 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 48
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | .hbm, ⟨34, _⟩ => ⟨S_, .f32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x64, .f32⟩
  | .hbm, ⟨41, _⟩ => ⟨S10000x64, .f32⟩
  | .hbm, ⟨42, _⟩ => ⟨S10000x64, .f32⟩
  | .hbm, ⟨43, _⟩ => ⟨S_, .f32⟩
  | .hbm, ⟨44, _⟩ => ⟨S10000, .f32⟩
  | .hbm, ⟨45, _⟩ => ⟨S10000x1, .f32⟩
  | .hbm, ⟨46, _⟩ => ⟨S10000x64, .f32⟩
  | .hbm, ⟨47, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.K.Data.lean ====
import proofs.«118310_g48206712930318_cont_8to1_c_213_2_alg».proof.Proof.Gen.Kernel.Frame
import proofs.«118310_g48206712930318_cont_8to1_c_213_2_alg».proof.Proof.Gen.Kernel.Skeleton
import Idealize.ShloMosaic.Lib.Pipeline.FrameBody
import Idealize.ShloMosaic.Lib.Ring
import Idealize.ShloMosaic.Lib.Tactic
import Idealize.ShloMosaic.Lib.ValueIdx

/-!
  What the kernel holds between grid points, and what it leaves in its two results' blocks.

  The grid has 50 points. Point 0 stores `x · w1` into the first scratch array, whole. Every point `t < 25` (the first
  phase) reads that array, computes the 400 rows `[400 t, 400 t + 400)` of `max (a · (x · w1) + b1) 0 · w2` from the `t`-th
  row block of `a`, and stores them into the same rows of the second scratch array. Every point `t ≥ 25` (the second phase)
  reads the second scratch array whole and the row block `t − 25` of `a`, and stores that block's log-softmax and softmax
  rows into the two results' staging blocks. So after point `n`: the first scratch array holds `x · w1` (`supp1`); the
  second holds the rows of the first phase's points up to `n` (`Filled`), all 10000 rows once `n ≥ 24` (`supp2`); and a
  second-phase point leaves the two result blocks `outLS` and `outSM`. Nothing here is evaluated: each is the kernel's own
  pure term of the argument blocks, at any float instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions of the body, decided over the grid -/

/-- The body's first condition: the point is the grid's first. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second: the point is in the first phase (before point 25). -/
abbrev inPhase1 (i : grid0.Coords) : Prop := k0_cond2 i = 1#1
theorem inPhase1_iff : ∀ t : Fin cfg0.N, inPhase1 (grid0.coords t) ↔ t.val < 25 :=
  (by decide +kernel : ∀ t : Fin grid0.N, inPhase1 (grid0.coords t) ↔ t.val < 25)

/-- The third: the point is in the second phase (from point 25 on). -/
abbrev inPhase2 (i : grid0.Coords) : Prop := k0_cond3 i = 1#1
theorem inPhase2_iff : ∀ t : Fin cfg0.N, inPhase2 (grid0.coords t) ↔ 25 ≤ t.val :=
  (by decide +kernel : ∀ t : Fin grid0.N, inPhase2 (grid0.coords t) ↔ 25 ≤ t.val)

/-- The rows a first-phase point stores: from row `400 t`, column 0. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the results are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- A result's staging block is stored into at the second phase's points only … -/
theorem idle6_iff : ∀ t : Fin cfg0.N, cfg0.idle 6 (grid0.coords t) = true ↔ t.val < 25 :=
  (by decide +kernel : ∀ t : Fin grid0.N, cfg0.idle 6 (grid0.coords t) = true ↔ t.val < 25)
theorem idle7_iff : ∀ t : Fin cfg0.N, cfg0.idle 7 (grid0.coords t) = true ↔ t.val < 25 :=
  (by decide +kernel : ∀ t : Fin grid0.N, cfg0.idle 7 (grid0.coords t) = true ↔ t.val < 25)
/-- … and written back at exactly those points: during the first phase the block index stays 0, so nothing is written back. -/
theorem flush6_iff : ∀ t : Fin cfg0.N, (cfg0.win 6).flush t = true ↔ 25 ≤ t.val :=
  (by decide +kernel : ∀ t : Fin grid0.N, win0_6.flush t = true ↔ 25 ≤ t.val)
theorem flush7_iff : ∀ t : Fin cfg0.N, (cfg0.win 7).flush t = true ↔ 25 ≤ t.val :=
  (by decide +kernel : ∀ t : Fin grid0.N, win0_7.flush t = true ↔ 25 ≤ t.val)

/-! ## The staging memrefs at a point, and the two scratch arrays -/

abbrev stg0 (t : Fin cfg0.N) : Memref sig .tc .vmem S10000x128 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S400x10000 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S128x128 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S128x64 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x64 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S400x64 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S400x64 .f32 := win0_7.stage (cfg0.slots t 7)
abbrev hstg7 (t : Fin cfg0.N) : (stg7 t).IsWhole := hstage0_7 ((cfg0.slots t 7).cast nbuf0_7)
/-- The two scratch arrays: whole buffers of the kernel's own. -/
abbrev scr0 : Memref sig .tc .vmem S10000x128 .f32 := Memref.whole cc0_scratch0
abbrev scr1 : Memref sig .tc .vmem S10000x64 .f32 := Memref.whole cc0_scratch1

/-- What the launch hands the region, with the two scratch arrays as memrefs at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## The input blocks, by their literal types -/

/-- The grid's first point. -/
abbrev t₀ : Fin cfg0.N := ⟨0, by decide⟩

abbrev xBlk (c : Dev nD) (t : Fin cfg0.N) : Vec F S10000x128 .f32 := iblk m c 0 t
abbrev aBlk (c : Dev nD) (t : Fin cfg0.N) : Vec F S400x10000 .f32 := iblk m c 1 t
abbrev w1Blk (c : Dev nD) (t : Fin cfg0.N) : Vec F S128x128 .f32 := iblk m c 2 t
abbrev b1Blk (c : Dev nD) (t : Fin cfg0.N) : Vec F S1x128 .f32 := iblk m c 3 t
abbrev w2Blk (c : Dev nD) (t : Fin cfg0.N) : Vec F S128x64 .f32 := iblk m c 4 t
abbrev b2Blk (c : Dev nD) (t : Fin cfg0.N) : Vec F S1x64 .f32 := iblk m c 5 t

/-! ## What the scratch arrays hold, and what the results' blocks hold -/

/-- The first scratch array from point 0 on: `x · w1`, the kernel's term of the two blocks at the first point. -/
def supp1 (c : Dev nD) : Vec F S10000x128 .f32 := k0_pay1 (xBlk m c t₀) (w1Blk m c t₀)

/-- The 400 rows a first-phase point `t` stores into the second scratch array. -/
def supp2Rows (c : Dev nD) (t : Fin cfg0.N) : Vec F S400x64 .f32 :=
  k0_pay2 (aBlk m c t) (supp1 m c) (b1Blk m c t) (w2Blk m c t)

/-- Contents `d` of the second scratch array hold the rows of every first-phase point up to `n`: row `400 t + p`,
    column `q` is point `t`'s row `p`, column `q`. -/
def Filled (c : Dev nD) (n : ℕ) (d : Vec F S10000x64 .f32) : Prop :=
  ∀ (t : Fin cfg0.N), t.val ≤ n → t.val < 25 → ∀ (idx : S10000x64.Idx) (y : S400x64.Idx),
    (idx 0).val = 400 * t.val + (y 0).val → (idx 1).val = (y 1).val → d idx = supp2Rows m c t y

/-- A row of the 10000 lies in one of the first 25 row blocks of 400. -/
theorem row_div_lt (idx : S10000x64.Idx) : (idx 0).val / 400 < cfg0.N := by
  have h : (idx 0).val < 10000 := ValueIdx.idx2_lt0 idx
  have hN : cfg0.N = 50 := N_0
  omega

/-- The row's block, as a grid point of the first phase. -/
abbrev rowPoint (idx : S10000x64.Idx) : Fin cfg0.N := ⟨(idx 0).val / 400, row_div_lt idx⟩

/-- The row's place within its block, with the column. -/
abbrev rowLocal (idx : S10000x64.Idx) : S400x64.Idx := fun a => match a with
  | ⟨0, _⟩ => ⟨(idx 0).val % 400, Nat.mod_lt _ (by decide)⟩
  | ⟨1, _⟩ => ⟨(idx 1).val, ValueIdx.idx2_lt1 idx⟩

/-- The second scratch array once the first phase is over: row `r` is row `r % 400` of point `r / 400`. -/
def supp2 (c : Dev nD) : Vec F S10000x64 .f32 := fun idx => supp2Rows m c (rowPoint idx) (rowLocal idx)

/-- Contents that hold every first-phase point's rows are `supp2`. -/
theorem eq_supp2_of_filled (c : Dev nD) (n : ℕ) (hn : 24 ≤ n) (d : Vec F S10000x64 .f32) (h : Filled m c n d) :
    d = supp2 m c := by
  funext idx
  have hr : (idx 0).val < 10000 := ValueIdx.idx2_lt0 idx
  exact h (rowPoint idx) (by show (idx 0).val / 400 ≤ n; omega) (by show (idx 0).val / 400 < 25; omega) idx (rowLocal idx)
    (by show (idx 0).val = 400 * ((idx 0).val / 400) + (idx 0).val % 400; omega) rfl

/-- The log-softmax rows a second-phase point `t` leaves in the first result's staging block. -/
def outLS (c : Dev nD) (t : Fin cfg0.N) : Vec F S400x64 .f32 := k0_pay7 (aBlk m c t) (supp2 m c) (b2Blk m c t)

/-- The softmax rows it leaves in the second result's staging block. -/
def outSM (c : Dev nD) (t : Fin cfg0.N) : Vec F S400x64 .f32 := k0_pay6 (aBlk m c t) (supp2 m c) (b2Blk m c t)

/-! ## The region's invariant and the proof data -/

/-- The invariant before position `n`: before the first point the two scratch arrays hold anything; afterwards the
    first holds `x · w1` and the second holds the rows of the first-phase points so far; the generator register is
    at some state throughout. -/
def Phi (c : Dev nD) : (n : ℕ) → n ≤ cfg0.N → sProp 𝕄
  | 0, _ => Pipeline.ΦA spec0 c
  | n + 1, _ => iprop(iprop(owns (c : Thread nD τ) scr0 fullShare (supp1 m c)
      ∗ (∃ d, ⌜Filled m c n d⌝ ∗ owns (c : Thread nD τ) scr1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(iprop(owns (c : Thread nD τ) scr0 fullShare (supp1 m c)
      ∗ (∃ d, ⌜Filled m c n d⌝ ∗ owns (c : Thread nD τ) scr1 fullShare d)) ∗ (∃ r, prngReg c r)) := rfl

theorem Phi_pos (c : Dev nD) (n : ℕ) (h : n ≤ cfg0.N) (hz : n ≠ 0) :
    Phi m c n h = iprop(iprop(owns (c : Thread nD τ) scr0 fullShare (supp1 m c)
      ∗ (∃ d, ⌜Filled m c (n - 1) d⌝ ∗ owns (c : Thread nD τ) scr1 fullShare d)) ∗ (∃ r, prngReg c r)) := by
  cases n with
  | zero => exact absurd rfl hz
  | succ n => rfl

/-- The proof data of the one pipeline on core `c`: the arrays as the region finds them; after the body each input's
    staging block at the array's block, each result's at the rows the point computes; the invariant above; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outLS m c t
    | ⟨7, _⟩ => outSM m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outLS m c t := by dsimp only [dats]
theorem after_7 (c : Dev nD) (t : Fin cfg0.N) : (dats m 0 c).after 7 t = outSM m c t := by dsimp only [dats]

/-- Each input's current staging block holds the array's block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.Kernel.Hand

end
-- ==== Proof.K.Rows.lean ====
import proofs.«118310_g48206712930318_cont_8to1_c_213_2_alg».proof.Proof.K.Data
import Idealize.ShloMosaic.Lib.WritesUnit

/-!
  The second scratch array after a first-phase point: the contents it was found at, with the point's 400 rows stored over
  rows `[400 t, 400 t + 400)`. Reading it back: a row of the stored range reads the stored rows, any other row reads what
  was there. So if the array held the rows of the points before `t`, it now holds those of the points up to `t`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The zero offsets of a rank-2 whole-block load or store, spelt as the constant function. -/
theorem off00 : (![0, 0] : Fin 2 → ℕ) = fun _ => 0 := by
  funext a; match a with | ⟨0, _⟩ => rfl | ⟨1, _⟩ => rfl

/-- Contents `d` of the second scratch array with `w` stored over the rows a first-phase point at coordinates `i` names. -/
def storeRows (arg10 : Memref sig .tc .vmem S10000x64 .f32) (harg10 : arg10.IsWhole) (i : grid0.Coords) (h : inPhase1 i)
    (d : Vec F S10000x64 .f32) (w : Vec F S400x64 .f32) : Vec F S10000x64 .f32 :=
  arg10.view.read (Elt F) (arg10.view.writes (Elt F) (harg10.unread d)
    [⟨Rect.unit (s := S10000x64) (k0_off1 i) S400x64.size (k0_off1_inb i h), w⟩])

/-- A row of the stored range reads the stored rows. -/
theorem storeRows_of_mem (arg10 : Memref sig .tc .vmem S10000x64 .f32) (harg10 : arg10.IsWhole) (t : Fin cfg0.N) (ht : t.val < 25)
    (h : inPhase1 (grid0.coords t)) (d : Vec F S10000x64 .f32) (w : Vec F S400x64 .f32) (idx : S10000x64.Idx) (y : S400x64.Idx)
    (h0 : (idx 0).val = 400 * t.val + (y 0).val) (h1 : (idx 1).val = (y 1).val) :
    storeRows arg10 harg10 (grid0.coords t) h d w idx = w y := by
  unfold storeRows
  exact View.read_writes_cons_rows_of_mem arg10.view (harg10.unread d) (k0_off1_inb (grid0.coords t) h) w [] idx y
    (off1_eq t ht) h0 h1

/-- A row outside the stored range reads what was there. -/
theorem storeRows_of_not_mem (arg10 : Memref sig .tc .vmem S10000x64 .f32) (harg10 : arg10.IsWhole) (t : Fin cfg0.N) (ht : t.val < 25)
    (h : inPhase1 (grid0.coords t)) (d : Vec F S10000x64 .f32) (w : Vec F S400x64 .f32) (idx : S10000x64.Idx)
    (hout : (idx 0).val < 400 * t.val ∨ 400 * t.val + 400 ≤ (idx 0).val) :
    storeRows arg10 harg10 (grid0.coords t) h d w idx = d idx := by
  unfold storeRows
  rw [View.read_writes_cons_rows_of_not_mem arg10.view (harg10.unread d) (k0_off1_inb (grid0.coords t) h) w [] idx
    (off1_eq t ht) rfl hout, View.writes_nil, harg10.read_unread]

/-- At the first point: whatever the array held, after the store it holds point 0's rows. -/
theorem filled_zero (c : Dev nD) (arg10 : Memref sig .tc .vmem S10000x64 .f32) (harg10 : arg10.IsWhole) (t : Fin cfg0.N) (ht : t.val = 0)
    (h : inPhase1 (grid0.coords t)) (d : Vec F S10000x64 .f32) :
    Filled m c t.val (storeRows arg10 harg10 (grid0.coords t) h d (supp2Rows m c t)) := by
  intro t' ht' ht25 idx y h0 h1
  have e : t' = t := Fin.ext (by omega)
  subst e
  exact storeRows_of_mem arg10 harg10 t' ht25 h d _ idx y h0 h1

/-- At a later first-phase point: if the array held the rows of the points before `t`, after the store it holds those of
    the points up to `t`. -/
theorem filled_step (c : Dev nD) (arg10 : Memref sig .tc .vmem S10000x64 .f32) (harg10 : arg10.IsWhole) (t : Fin cfg0.N) (ht : t.val < 25)
    (h : inPhase1 (grid0.coords t)) (d : Vec F S10000x64 .f32) (hd : Filled m c (t.val - 1) d) (hpos : t.val ≠ 0) :
    Filled m c t.val (storeRows arg10 harg10 (grid0.coords t) h d (supp2Rows m c t)) := by
  intro t' ht' ht25 idx y h0 h1
  by_cases e : t' = t
  · subst e
    exact storeRows_of_mem arg10 harg10 t' ht25 h d _ idx y h0 h1
  · have hlt : t'.val < t.val := lt_of_le_of_ne ht' (fun hv => e (Fin.ext hv))
    have hy : (y 0).val < 400 := (y 0).isLt
    rw [storeRows_of_not_mem arg10 harg10 t ht h d _ idx (Or.inl (by omega))]
    exact hd t' (by omega) ht25 idx y h0 h1

/-- In the second phase nothing is stored: contents that held every first-phase point's rows still do. -/
theorem filled_mono (c : Dev nD) (n n' : ℕ) (hn : 24 ≤ n) (d : Vec F S10000x64 .f32) (hd : Filled m c n d) : Filled m c n' d := by
  intro t' _ ht25 idx y h0 h1
  exact hd t' (by omega) ht25 idx y h0 h1

end Cert.Kernel.Hand

end
-- ==== Proof.K.RunA.lean ====
import proofs.«118310_g48206712930318_cont_8to1_c_213_2_alg».proof.Proof.K.Rows
import Idealize.ShloMosaic.Lib.Pipeline.Value

/-!
  The body at the grid's first point. Its first conditional runs: it loads the node features and the first weight matrix
  and stores their product into the first scratch array, whole, whatever that array held. Then its second conditional runs
  as at every first-phase point, reading the first scratch array back: it stores point 0's 400 rows over rows `[0, 400)` of
  the second scratch array. Every other buffer, the two results' staging blocks among them, is handed back as it was found.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runA (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : isFirst i) (hc1 : inPhase1 i) (hc2 : ¬inPhase2 i)
    (x0 : Vec F S10000x128 .f32) (x1 : Vec F S400x10000 .f32) (x2 : Vec F S128x128 .f32) (x3 : Vec F S1x128 .f32) (x4 : Vec F S128x64 .f32) (x5 : Vec F S1x64 .f32) (d7 d8 : Vec F S400x64 .f32) (xs1 : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ (∃ d, owns (c : Thread nD τ) arg9 fullShare d) ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ owns (c : Thread nD τ) arg9 fullShare (k0_pay1 x0 x2) ∗ owns (c : Thread nD τ) arg10 fullShare (storeRows arg10 harg10 i hc1 xs1 (k0_pay2 x1 (k0_pay1 x0 x2) x3 x4))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr; swap; · iexact HS0
    ipureintro
    sl_unfold_words
    rw [View.read_writes_eq_canon _ _ _ (fun y => ⟨_, List.mem_singleton_self _, View.mem_set_unit_zero off00 inb_S10000x128_S10000x128_0_0 y⟩), View.canon_unit_zero off00]
    simp only [View.readAt_eq_ld, harg1.read_unread, harg2.read_unread, harg3.read_unread, harg4.read_unread, harg5.read_unread, harg6.read_unread, harg9.read_unread, harg10.read_unread, View.ld_unit_zero (S := S10000x128) off00, View.ld_unit_zero (S := S400x10000) off00, View.ld_unit_zero (S := S128x128) off00, View.ld_unit_zero (S := S1x128) off00, View.ld_unit_zero (S := S128x64) off00, View.ld_unit_zero (S := S1x64) off00, View.ld_unit_zero (S := S10000x64) off00]
  iexists _; isplitr; swap; · iexact HS1
  ipureintro
  sl_unfold_words
  unfold storeRows
  simp only [View.readCov_unit_zero (S := S10000x128) _ off00, View.readAt_eq_ld, harg1.read_unread, harg2.read_unread, harg3.read_unread, harg4.read_unread, harg5.read_unread, harg6.read_unread, harg9.read_unread, harg10.read_unread, View.ld_unit_zero (S := S10000x128) off00, View.ld_unit_zero (S := S400x10000) off00, View.ld_unit_zero (S := S128x128) off00, View.ld_unit_zero (S := S1x128) off00, View.ld_unit_zero (S := S128x64) off00, View.ld_unit_zero (S := S1x64) off00, View.ld_unit_zero (S := S10000x64) off00]
  rfl

end Cert.Kernel.Hand

end
-- ==== Proof.K.RunB.lean ====
import proofs.«118310_g48206712930318_cont_8to1_c_213_2_alg».proof.Proof.K.Rows
import Idealize.ShloMosaic.Lib.Pipeline.Value

/-!
  The body at a point of the first phase other than the first (`0 < t < 25`). Only its second conditional runs: it loads
  the point's row block of the adjacency, the first scratch array whole, the first bias row and the second weight matrix,
  and stores the 400 rows it computes over rows `[400 t, 400 t + 400)` of the second scratch array. Every other buffer,
  the two results' staging blocks among them, is handed back as it was found.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runB (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬isFirst i) (hc1 : inPhase1 i) (hc2 : ¬inPhase2 i)
    (x0 : Vec F S10000x128 .f32) (x1 : Vec F S400x10000 .f32) (x2 : Vec F S128x128 .f32) (x3 : Vec F S1x128 .f32) (x4 : Vec F S128x64 .f32) (x5 : Vec F S1x64 .f32) (d7 d8 : Vec F S400x64 .f32) (xs0 : Vec F S10000x128 .f32) (xs1 : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ owns (c : Thread nD τ) arg9 fullShare xs0 ∗ owns (c : Thread nD τ) arg10 fullShare (storeRows arg10 harg10 i hc1 xs1 (k0_pay2 x1 xs0 x3 x4))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr; · ipureintro; exact harg9.read_unread _
    iexact HS0
  iexists _; isplitr; swap; · iexact HS1
  ipureintro
  unfold storeRows
  simp only [View.readAt_eq_ld, harg1.read_unread, harg2.read_unread, harg3.read_unread, harg4.read_unread, harg5.read_unread, harg6.read_unread, harg9.read_unread, harg10.read_unread, View.ld_unit_zero (S := S10000x128) off00, View.ld_unit_zero (S := S400x10000) off00, View.ld_unit_zero (S := S128x128) off00, View.ld_unit_zero (S := S1x128) off00, View.ld_unit_zero (S := S128x64) off00, View.ld_unit_zero (S := S1x64) off00, View.ld_unit_zero (S := S10000x64) off00]

end Cert.Kernel.Hand

end
-- ==== Proof.K.RunC.lean ====
import proofs.«118310_g48206712930318_cont_8to1_c_213_2_alg».proof.Proof.K.Rows
import Idealize.ShloMosaic.Lib.Pipeline.Value

/-!
  The body at a point of the second phase (`t ≥ 25`). Only its third conditional runs: it loads the point's row block of
  the adjacency, the second scratch array whole and the second bias row, and stores the block's log-softmax rows into the
  first result's staging block and its softmax rows into the second's, each through the whole block. Every other buffer is
  handed back as it was found.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runC (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬isFirst i) (hc1 : ¬inPhase1 i) (hc2 : inPhase2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .f32) (xs1 : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay7 x1 xs1 x5) ∗ owns (c : Thread nD τ) arg8 fullShare (k0_pay6 x1 xs1 x5) ∗ owns (c : Thread nD τ) arg9 fullShare xs0 ∗ owns (c : Thread nD τ) arg10 fullShare xs1) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    rw [View.read_writes_eq_canon _ _ _ (fun y => ⟨_, List.mem_singleton_self _, View.mem_set_unit_zero off00 inb_S400x64_S400x64_0_0 y⟩), View.canon_unit_zero off00]
    simp only [View.readAt_eq_ld, harg2.read_unread, harg10.read_unread, harg6.read_unread, View.ld_unit_zero (S := S400x10000) off00, View.ld_unit_zero (S := S10000x64) off00, View.ld_unit_zero (S := S1x64) off00]
  isplitl [H7]
  · iexists _; isplitr; swap; · iexact H7
    ipureintro
    rw [View.read_writes_eq_canon _ _ _ (fun y => ⟨_, List.mem_singleton_self _, View.mem_set_unit_zero off00 inb_S400x64_S400x64_0_0 y⟩), View.canon_unit_zero off00]
    simp only [View.readAt_eq_ld, harg2.read_unread, harg10.read_unread, harg6.read_unread, View.ld_unit_zero (S := S400x10000) off00, View.ld_unit_zero (S := S10000x64) off00, View.ld_unit_zero (S := S1x64) off00]
  isplitl [HS0]
  · iexists _; isplitr; · ipureintro; exact harg9.read_unread _
    iexact HS0
  iexists _; isplitr; · ipureintro; exact harg10.read_unread _
  iexact HS1

end Cert.Kernel.Hand

end
-- ==== Proof.K.Body.lean ====
import proofs.«118310_g48206712930318_cont_8to1_c_213_2_alg».proof.Proof.K.RunA
import proofs.«118310_g48206712930318_cont_8to1_c_213_2_alg».proof.Proof.K.RunB
import proofs.«118310_g48206712930318_cont_8to1_c_213_2_alg».proof.Proof.K.RunC

/-!
  The body at every grid point, against the proof data. Which of its three conditionals run is decided by the point: the
  first point, a later first-phase point, a second-phase point. In the first phase the two results' staging blocks are
  handed back as they were found (nothing writes them back there); the invariant takes the second scratch array back with
  the point's rows added. In the second phase the second scratch array holds every first-phase point's rows, so it IS the
  function `supp2`, and the point's result blocks are that function's softmax and log-softmax rows.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (stg0 t) fullShare ((dats m 0 c).after 0 t) from by
    unfold Dat.leavesExact; rw [live0 t], after_0]
  rw [show (dats m 0 c).leavesExact 1 t = owns (c : Thread nD τ) (stg1 t) fullShare ((dats m 0 c).after 1 t) from by
    unfold Dat.leavesExact; rw [live1 t], after_1]
  rw [show (dats m 0 c).leavesExact 2 t = owns (c : Thread nD τ) (stg2 t) fullShare ((dats m 0 c).after 2 t) from by
    unfold Dat.leavesExact; rw [live2 t], after_2]
  rw [show (dats m 0 c).leavesExact 3 t = owns (c : Thread nD τ) (stg3 t) fullShare ((dats m 0 c).after 3 t) from by
    unfold Dat.leavesExact; rw [live3 t], after_3]
  rw [show (dats m 0 c).leavesExact 4 t = owns (c : Thread nD τ) (stg4 t) fullShare ((dats m 0 c).after 4 t) from by
    unfold Dat.leavesExact; rw [live4 t], after_4]
  rw [show (dats m 0 c).leavesExact 5 t = owns (c : Thread nD τ) (stg5 t) fullShare ((dats m 0 c).after 5 t) from by
    unfold Dat.leavesExact; rw [live5 t], after_5]
  have hN : t.val < 50 := lt_of_lt_of_eq t.isLt (show cfg0.N = 50 from N_0)
  by_cases h1 : t.val < 25
  · -- the first phase: the results' blocks are idle and not written back
    have hc1 : inPhase1 (grid0.coords t) := (inPhase1_iff t).mpr h1
    have hc2 : ¬inPhase2 (grid0.coords t) := fun h => absurd ((inPhase2_iff t).mp h) (by omega)
    rw [(dats m 0 c).leavesExact_idle 6 t ((idle6_iff t).mpr h1) (Bool.eq_false_iff.mpr fun h => absurd ((flush6_iff t).mp h) (by omega))]
    rw [(dats m 0 c).leavesExact_idle 7 t ((idle7_iff t).mpr h1) (Bool.eq_false_iff.mpr fun h => absurd ((flush7_iff t).mp h) (by omega))]
    by_cases hz : t.val = 0
    · -- the first point
      have hc0 : isFirst (grid0.coords t) := (isFirst_iff t).mpr hz
      rw [Phi_castSucc m c t, Phi_zero m c _ _ hz, PhiA_eq]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr0 (Memref.isWhole_whole _) scr1 (Memref.isWhole_whole _) hc0 hc1 hc2 (iblk m c 0 t) (iblk m c 1 t) (iblk m c 2 t) (iblk m c 3 t) (iblk m c 4 t) (iblk m c 5 t) ((dats m 0 c).before 6 t d6) ((dats m 0 c).before 7 t d7) ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · have e : t = t₀ := Fin.ext hz
            rw [show supp1 m c = k0_pay1 (iblk m c 0 t) (iblk m c 2 t) from by rw [e]; rfl]
            iexact HS0
          iexists _; isplitr; swap; · iexact HS1
          ipureintro
          have e : t = t₀ := Fin.ext hz
          have hs : k0_pay2 (iblk m c 1 t) (k0_pay1 (iblk m c 0 t) (iblk m c 2 t)) (iblk m c 3 t) (iblk m c 4 t) = supp2Rows m c t := by
            rw [e]; rfl
          rw [hs]
          exact filled_zero m c scr1 _ t hz hc1 ds1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · -- a later point of the first phase
      have hc0 : ¬isFirst (grid0.coords t) := fun h => hz ((isFirst_iff t).mp h)
      rw [Phi_castSucc m c t, Phi_pos m c _ _ hz]
      iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr0 (Memref.isWhole_whole _) scr1 (Memref.isWhole_whole _) hc0 hc1 hc2 (iblk m c 0 t) (iblk m c 1 t) (iblk m c 2 t) (iblk m c 3 t) (iblk m c 4 t) (iblk m c 5 t) ((dats m 0 c).before 6 t d6) ((dats m 0 c).before 7 t d7) (supp1 m c) ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexact HS0
          iexists _; isplitr; swap; · iexact HS1
          ipureintro
          exact filled_step m c scr1 _ t h1 hc1 ds1 hds1 hz
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · -- the second phase: the results' blocks are stored whole
    have h2 : 25 ≤ t.val := by omega
    have hz : t.val ≠ 0 := by omega
    have hc0 : ¬isFirst (grid0.coords t) := fun h => hz ((isFirst_iff t).mp h)
    have hc1 : ¬inPhase1 (grid0.coords t) := fun h => h1 ((inPhase1_iff t).mp h)
    have hc2 : inPhase2 (grid0.coords t) := (inPhase2_iff t).mpr h2
    rw [show (dats m 0 c).leavesExact 6 t = owns (c : Thread nD τ) (stg6 t) fullShare ((dats m 0 c).after 6 t) from by
      unfold Dat.leavesExact; rw [Bool.eq_false_iff.mpr fun h => h1 ((idle6_iff t).mp h)], after_6]
    rw [show (dats m 0 c).leavesExact 7 t = owns (c : Thread nD τ) (stg7 t) fullShare ((dats m 0 c).after 7 t) from by
      unfold Dat.leavesExact; rw [Bool.eq_false_iff.mpr fun h => h1 ((idle7_iff t).mp h)], after_7]
    unfold outLS outSM
    rw [Phi_castSucc m c t, Phi_pos m c _ _ hz]
    iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : ds1 = supp2 m c := eq_supp2_of_filled m c (t.val - 1) (by omega) ds1 hds1
    iapply (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr0 (Memref.isWhole_whole _) scr1 (Memref.isWhole_whole _) hc0 hc1 hc2 (iblk m c 0 t) (iblk m c 1 t) (iblk m c 2 t) (iblk m c 3 t) (iblk m c 4 t) (iblk m c 5 t) (supp1 m c) (supp2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexists _; isplitr; swap; · iexact HS1
        ipureintro
        exact filled_mono m c (t.val - 1) t.val (by omega) _ hds1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives it back: what the scratch arrays hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 50 := N_0; omega), PhiA_eq]
  iintro ⟨⟨HS0, ⟨%d, -, HS1⟩⟩, Hg⟩
  isplitl [HS0 HS1]
  · isplitl [HS0]
    · iexists _; iexact HS0
    iexists _; iexact HS1
  iexact Hg

end Cert.Kernel.Hand

end
-- ==== Proof.K.Run.lean ====
import proofs.«118310_g48206712930318_cont_8to1_c_213_2_alg».proof.Proof.K.Body

/-!
  The launch: with the proof data's arrays the region-entry contents, the body's obligation at every point, and the
  invariant yielded by and yielding back what the launch hands the region, every weakly fair execution of the program
  terminates without a fault, each window's array ending at the contents the proof data computes — an argument at its
  entry contents, a result at its entry contents overwritten block by block by what the second-phase points left.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KI.Data.lean ====
import proofs.«118310_g48206712930318_cont_8to1_c_213_2_alg».proof.Proof.Gen.KernelIdeal.Frame
import proofs.«118310_g48206712930318_cont_8to1_c_213_2_alg».proof.Proof.Gen.KernelIdeal.Skeleton
import Idealize.ShloMosaic.Lib.Pipeline.FrameBody
import Idealize.ShloMosaic.Lib.Ring
import Idealize.ShloMosaic.Lib.Tactic
import Idealize.ShloMosaic.Lib.ValueIdx

/-!
  What the kernel holds between grid points, and what it leaves in its two results' blocks.

  The grid has 50 points. Point 0 stores `x · w1` into the first scratch array, whole. Every point `t < 25` (the first
  phase) reads that array, computes the 400 rows `[400 t, 400 t + 400)` of `max (a · (x · w1) + b1) 0 · w2` from the `t`-th
  row block of `a`, and stores them into the same rows of the second scratch array. Every point `t ≥ 25` (the second phase)
  reads the second scratch array whole and the row block `t − 25` of `a`, and stores that block's log-softmax and softmax
  rows into the two results' staging blocks. So after point `n`: the first scratch array holds `x · w1` (`supp1`); the
  second holds the rows of the first phase's points up to `n` (`Filled`), all 10000 rows once `n ≥ 24` (`supp2`); and a
  second-phase point leaves the two result blocks `outLS` and `outSM`. Nothing here is evaluated: each is the kernel's own
  pure term of the argument blocks, at any float instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions of the body, decided over the grid -/

/-- The body's first condition: the point is the grid's first. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second: the point is in the first phase (before point 25). -/
abbrev inPhase1 (i : grid0.Coords) : Prop := k0_cond2 i = 1#1
theorem inPhase1_iff : ∀ t : Fin cfg0.N, inPhase1 (grid0.coords t) ↔ t.val < 25 :=
  (by decide +kernel : ∀ t : Fin grid0.N, inPhase1 (grid0.coords t) ↔ t.val < 25)

/-- The third: the point is in the second phase (from point 25 on). -/
abbrev inPhase2 (i : grid0.Coords) : Prop := k0_cond3 i = 1#1
theorem inPhase2_iff : ∀ t : Fin cfg0.N, inPhase2 (grid0.coords t) ↔ 25 ≤ t.val :=
  (by decide +kernel : ∀ t : Fin grid0.N, inPhase2 (grid0.coords t) ↔ 25 ≤ t.val)

/-- The rows a first-phase point stores: from row `400 t`, column 0. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the results are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- A result's staging block is stored into at the second phase's points only … -/
theorem idle6_iff : ∀ t : Fin cfg0.N, cfg0.idle 6 (grid0.coords t) = true ↔ t.val < 25 :=
  (by decide +kernel : ∀ t : Fin grid0.N, cfg0.idle 6 (grid0.coords t) = true ↔ t.val < 25)
theorem idle7_iff : ∀ t : Fin cfg0.N, cfg0.idle 7 (grid0.coords t) = true ↔ t.val < 25 :=
  (by decide +kernel : ∀ t : Fin grid0.N, cfg0.idle 7 (grid0.coords t) = true ↔ t.val < 25)
/-- … and written back at exactly those points: during the first phase the block index stays 0, so nothing is written back. -/
theorem flush6_iff : ∀ t : Fin cfg0.N, (cfg0.win 6).flush t = true ↔ 25 ≤ t.val :=
  (by decide +kernel : ∀ t : Fin grid0.N, win0_6.flush t = true ↔ 25 ≤ t.val)
theorem flush7_iff : ∀ t : Fin cfg0.N, (cfg0.win 7).flush t = true ↔ 25 ≤ t.val :=
  (by decide +kernel : ∀ t : Fin grid0.N, win0_7.flush t = true ↔ 25 ≤ t.val)

/-! ## The staging memrefs at a point, and the two scratch arrays -/

abbrev stg0 (t : Fin cfg0.N) : Memref sig .tc .vmem S10000x128 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S400x10000 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S128x128 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S128x64 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x64 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S400x64 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S400x64 .f32 := win0_7.stage (cfg0.slots t 7)
abbrev hstg7 (t : Fin cfg0.N) : (stg7 t).IsWhole := hstage0_7 ((cfg0.slots t 7).cast nbuf0_7)
/-- The two scratch arrays: whole buffers of the kernel's own. -/
abbrev scr0 : Memref sig .tc .vmem S10000x128 .f32 := Memref.whole cc0_scratch0
abbrev scr1 : Memref sig .tc .vmem S10000x64 .f32 := Memref.whole cc0_scratch1

/-- What the launch hands the region, with the two scratch arrays as memrefs at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## The input blocks, by their literal types -/

/-- The grid's first point. -/
abbrev t₀ : Fin cfg0.N := ⟨0, by decide⟩

abbrev xBlk (c : Dev nD) (t : Fin cfg0.N) : Vec F S10000x128 .f32 := iblk m c 0 t
abbrev aBlk (c : Dev nD) (t : Fin cfg0.N) : Vec F S400x10000 .f32 := iblk m c 1 t
abbrev w1Blk (c : Dev nD) (t : Fin cfg0.N) : Vec F S128x128 .f32 := iblk m c 2 t
abbrev b1Blk (c : Dev nD) (t : Fin cfg0.N) : Vec F S1x128 .f32 := iblk m c 3 t
abbrev w2Blk (c : Dev nD) (t : Fin cfg0.N) : Vec F S128x64 .f32 := iblk m c 4 t
abbrev b2Blk (c : Dev nD) (t : Fin cfg0.N) : Vec F S1x64 .f32 := iblk m c 5 t

/-! ## What the scratch arrays hold, and what the results' blocks hold -/

/-- The first scratch array from point 0 on: `x · w1`, the kernel's term of the two blocks at the first point. -/
def supp1 (c : Dev nD) : Vec F S10000x128 .f32 := k0_pay1 (xBlk m c t₀) (w1Blk m c t₀)

/-- The 400 rows a first-phase point `t` stores into the second scratch array. -/
def supp2Rows (c : Dev nD) (t : Fin cfg0.N) : Vec F S400x64 .f32 :=
  k0_pay2 (aBlk m c t) (supp1 m c) (b1Blk m c t) (w2Blk m c t)

/-- Contents `d` of the second scratch array hold the rows of every first-phase point up to `n`: row `400 t + p`,
    column `q` is point `t`'s row `p`, column `q`. -/
def Filled (c : Dev nD) (n : ℕ) (d : Vec F S10000x64 .f32) : Prop :=
  ∀ (t : Fin cfg0.N), t.val ≤ n → t.val < 25 → ∀ (idx : S10000x64.Idx) (y : S400x64.Idx),
    (idx 0).val = 400 * t.val + (y 0).val → (idx 1).val = (y 1).val → d idx = supp2Rows m c t y

/-- A row of the 10000 lies in one of the first 25 row blocks of 400. -/
theorem row_div_lt (idx : S10000x64.Idx) : (idx 0).val / 400 < cfg0.N := by
  have h : (idx 0).val < 10000 := ValueIdx.idx2_lt0 idx
  have hN : cfg0.N = 50 := N_0
  omega

/-- The row's block, as a grid point of the first phase. -/
abbrev rowPoint (idx : S10000x64.Idx) : Fin cfg0.N := ⟨(idx 0).val / 400, row_div_lt idx⟩

/-- The row's place within its block, with the column. -/
abbrev rowLocal (idx : S10000x64.Idx) : S400x64.Idx := fun a => match a with
  | ⟨0, _⟩ => ⟨(idx 0).val % 400, Nat.mod_lt _ (by decide)⟩
  | ⟨1, _⟩ => ⟨(idx 1).val, ValueIdx.idx2_lt1 idx⟩

/-- The second scratch array once the first phase is over: row `r` is row `r % 400` of point `r / 400`. -/
def supp2 (c : Dev nD) : Vec F S10000x64 .f32 := fun idx => supp2Rows m c (rowPoint idx) (rowLocal idx)

/-- Contents that hold every first-phase point's rows are `supp2`. -/
theorem eq_supp2_of_filled (c : Dev nD) (n : ℕ) (hn : 24 ≤ n) (d : Vec F S10000x64 .f32) (h : Filled m c n d) :
    d = supp2 m c := by
  funext idx
  have hr : (idx 0).val < 10000 := ValueIdx.idx2_lt0 idx
  exact h (rowPoint idx) (by show (idx 0).val / 400 ≤ n; omega) (by show (idx 0).val / 400 < 25; omega) idx (rowLocal idx)
    (by show (idx 0).val = 400 * ((idx 0).val / 400) + (idx 0).val % 400; omega) rfl

/-- The log-softmax rows a second-phase point `t` leaves in the first result's staging block. -/
def outLS (c : Dev nD) (t : Fin cfg0.N) : Vec F S400x64 .f32 := k0_pay7 (aBlk m c t) (supp2 m c) (b2Blk m c t)

/-- The softmax rows it leaves in the second result's staging block. -/
def outSM (c : Dev nD) (t : Fin cfg0.N) : Vec F S400x64 .f32 := k0_pay6 (aBlk m c t) (supp2 m c) (b2Blk m c t)

/-! ## The region's invariant and the proof data -/

/-- The invariant before position `n`: before the first point the two scratch arrays hold anything; afterwards the
    first holds `x · w1` and the second holds the rows of the first-phase points so far; the generator register is
    at some state throughout. -/
def Phi (c : Dev nD) : (n : ℕ) → n ≤ cfg0.N → sProp 𝕄
  | 0, _ => Pipeline.ΦA spec0 c
  | n + 1, _ => iprop(iprop(owns (c : Thread nD τ) scr0 fullShare (supp1 m c)
      ∗ (∃ d, ⌜Filled m c n d⌝ ∗ owns (c : Thread nD τ) scr1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(iprop(owns (c : Thread nD τ) scr0 fullShare (supp1 m c)
      ∗ (∃ d, ⌜Filled m c n d⌝ ∗ owns (c : Thread nD τ) scr1 fullShare d)) ∗ (∃ r, prngReg c r)) := rfl

theorem Phi_pos (c : Dev nD) (n : ℕ) (h : n ≤ cfg0.N) (hz : n ≠ 0) :
    Phi m c n h = iprop(iprop(owns (c : Thread nD τ) scr0 fullShare (supp1 m c)
      ∗ (∃ d, ⌜Filled m c (n - 1) d⌝ ∗ owns (c : Thread nD τ) scr1 fullShare d)) ∗ (∃ r, prngReg c r)) := by
  cases n with
  | zero => exact absurd rfl hz
  | succ n => rfl

/-- The proof data of the one pipeline on core `c`: the arrays as the region finds them; after the body each input's
    staging block at the array's block, each result's at the rows the point computes; the invariant above; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outLS m c t
    | ⟨7, _⟩ => outSM m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outLS m c t := by dsimp only [dats]
theorem after_7 (c : Dev nD) (t : Fin cfg0.N) : (dats m 0 c).after 7 t = outSM m c t := by dsimp only [dats]

/-- Each input's current staging block holds the array's block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.KernelIdeal.Hand

end
-- ==== Proof.KI.Rows.lean ====
import proofs.«118310_g48206712930318_cont_8to1_c_213_2_alg».proof.Proof.KI.Data
import Idealize.ShloMosaic.Lib.WritesUnit

/-!
  The second scratch array after a first-phase point: the contents it was found at, with the point's 400 rows stored over
  rows `[400 t, 400 t + 400)`. Reading it back: a row of the stored range reads the stored rows, any other row reads what
  was there. So if the array held the rows of the points before `t`, it now holds those of the points up to `t`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The zero offsets of a rank-2 whole-block load or store, spelt as the constant function. -/
theorem off00 : (![0, 0] : Fin 2 → ℕ) = fun _ => 0 := by
  funext a; match a with | ⟨0, _⟩ => rfl | ⟨1, _⟩ => rfl

/-- Contents `d` of the second scratch array with `w` stored over the rows a first-phase point at coordinates `i` names. -/
def storeRows (arg10 : Memref sig .tc .vmem S10000x64 .f32) (harg10 : arg10.IsWhole) (i : grid0.Coords) (h : inPhase1 i)
    (d : Vec F S10000x64 .f32) (w : Vec F S400x64 .f32) : Vec F S10000x64 .f32 :=
  arg10.view.read (Elt F) (arg10.view.writes (Elt F) (harg10.unread d)
    [⟨Rect.unit (s := S10000x64) (k0_off1 i) S400x64.size (k0_off1_inb i h), w⟩])

/-- A row of the stored range reads the stored rows. -/
theorem storeRows_of_mem (arg10 : Memref sig .tc .vmem S10000x64 .f32) (harg10 : arg10.IsWhole) (t : Fin cfg0.N) (ht : t.val < 25)
    (h : inPhase1 (grid0.coords t)) (d : Vec F S10000x64 .f32) (w : Vec F S400x64 .f32) (idx : S10000x64.Idx) (y : S400x64.Idx)
    (h0 : (idx 0).val = 400 * t.val + (y 0).val) (h1 : (idx 1).val = (y 1).val) :
    storeRows arg10 harg10 (grid0.coords t) h d w idx = w y := by
  unfold storeRows
  exact View.read_writes_cons_rows_of_mem arg10.view (harg10.unread d) (k0_off1_inb (grid0.coords t) h) w [] idx y
    (off1_eq t ht) h0 h1

/-- A row outside the stored range reads what was there. -/
theorem storeRows_of_not_mem (arg10 : Memref sig .tc .vmem S10000x64 .f32) (harg10 : arg10.IsWhole) (t : Fin cfg0.N) (ht : t.val < 25)
    (h : inPhase1 (grid0.coords t)) (d : Vec F S10000x64 .f32) (w : Vec F S400x64 .f32) (idx : S10000x64.Idx)
    (hout : (idx 0).val < 400 * t.val ∨ 400 * t.val + 400 ≤ (idx 0).val) :
    storeRows arg10 harg10 (grid0.coords t) h d w idx = d idx := by
  unfold storeRows
  rw [View.read_writes_cons_rows_of_not_mem arg10.view (harg10.unread d) (k0_off1_inb (grid0.coords t) h) w [] idx
    (off1_eq t ht) rfl hout, View.writes_nil, harg10.read_unread]

/-- At the first point: whatever the array held, after the store it holds point 0's rows. -/
theorem filled_zero (c : Dev nD) (arg10 : Memref sig .tc .vmem S10000x64 .f32) (harg10 : arg10.IsWhole) (t : Fin cfg0.N) (ht : t.val = 0)
    (h : inPhase1 (grid0.coords t)) (d : Vec F S10000x64 .f32) :
    Filled m c t.val (storeRows arg10 harg10 (grid0.coords t) h d (supp2Rows m c t)) := by
  intro t' ht' ht25 idx y h0 h1
  have e : t' = t := Fin.ext (by omega)
  subst e
  exact storeRows_of_mem arg10 harg10 t' ht25 h d _ idx y h0 h1

/-- At a later first-phase point: if the array held the rows of the points before `t`, after the store it holds those of
    the points up to `t`. -/
theorem filled_step (c : Dev nD) (arg10 : Memref sig .tc .vmem S10000x64 .f32) (harg10 : arg10.IsWhole) (t : Fin cfg0.N) (ht : t.val < 25)
    (h : inPhase1 (grid0.coords t)) (d : Vec F S10000x64 .f32) (hd : Filled m c (t.val - 1) d) (hpos : t.val ≠ 0) :
    Filled m c t.val (storeRows arg10 harg10 (grid0.coords t) h d (supp2Rows m c t)) := by
  intro t' ht' ht25 idx y h0 h1
  by_cases e : t' = t
  · subst e
    exact storeRows_of_mem arg10 harg10 t' ht25 h d _ idx y h0 h1
  · have hlt : t'.val < t.val := lt_of_le_of_ne ht' (fun hv => e (Fin.ext hv))
    have hy : (y 0).val < 400 := (y 0).isLt
    rw [storeRows_of_not_mem arg10 harg10 t ht h d _ idx (Or.inl (by omega))]
    exact hd t' (by omega) ht25 idx y h0 h1

/-- In the second phase nothing is stored: contents that held every first-phase point's rows still do. -/
theorem filled_mono (c : Dev nD) (n n' : ℕ) (hn : 24 ≤ n) (d : Vec F S10000x64 .f32) (hd : Filled m c n d) : Filled m c n' d := by
  intro t' _ ht25 idx y h0 h1
  exact hd t' (by omega) ht25 idx y h0 h1

end Cert.KernelIdeal.Hand

end
-- ==== Proof.KI.RunA.lean ====
import proofs.«118310_g48206712930318_cont_8to1_c_213_2_alg».proof.Proof.KI.Rows
import Idealize.ShloMosaic.Lib.Pipeline.Value

/-!
  The body at the grid's first point. Its first conditional runs: it loads the node features and the first weight matrix
  and stores their product into the first scratch array, whole, whatever that array held. Then its second conditional runs
  as at every first-phase point, reading the first scratch array back: it stores point 0's 400 rows over rows `[0, 400)` of
  the second scratch array. Every other buffer, the two results' staging blocks among them, is handed back as it was found.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runA (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : isFirst i) (hc1 : inPhase1 i) (hc2 : ¬inPhase2 i)
    (x0 : Vec F S10000x128 .f32) (x1 : Vec F S400x10000 .f32) (x2 : Vec F S128x128 .f32) (x3 : Vec F S1x128 .f32) (x4 : Vec F S128x64 .f32) (x5 : Vec F S1x64 .f32) (d7 d8 : Vec F S400x64 .f32) (xs1 : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ (∃ d, owns (c : Thread nD τ) arg9 fullShare d) ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ owns (c : Thread nD τ) arg9 fullShare (k0_pay1 x0 x2) ∗ owns (c : Thread nD τ) arg10 fullShare (storeRows arg10 harg10 i hc1 xs1 (k0_pay2 x1 (k0_pay1 x0 x2) x3 x4))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr; swap; · iexact HS0
    ipureintro
    sl_unfold_words
    rw [View.read_writes_eq_canon _ _ _ (fun y => ⟨_, List.mem_singleton_self _, View.mem_set_unit_zero off00 inb_S10000x128_S10000x128_0_0 y⟩), View.canon_unit_zero off00]
    simp only [View.readAt_eq_ld, harg1.read_unread, harg2.read_unread, harg3.read_unread, harg4.read_unread, harg5.read_unread, harg6.read_unread, harg9.read_unread, harg10.read_unread, View.ld_unit_zero (S := S10000x128) off00, View.ld_unit_zero (S := S400x10000) off00, View.ld_unit_zero (S := S128x128) off00, View.ld_unit_zero (S := S1x128) off00, View.ld_unit_zero (S := S128x64) off00, View.ld_unit_zero (S := S1x64) off00, View.ld_unit_zero (S := S10000x64) off00]
  iexists _; isplitr; swap; · iexact HS1
  ipureintro
  sl_unfold_words
  unfold storeRows
  simp only [View.readCov_unit_zero (S := S10000x128) _ off00, View.readAt_eq_ld, harg1.read_unread, harg2.read_unread, harg3.read_unread, harg4.read_unread, harg5.read_unread, harg6.read_unread, harg9.read_unread, harg10.read_unread, View.ld_unit_zero (S := S10000x128) off00, View.ld_unit_zero (S := S400x10000) off00, View.ld_unit_zero (S := S128x128) off00, View.ld_unit_zero (S := S1x128) off00, View.ld_unit_zero (S := S128x64) off00, View.ld_unit_zero (S := S1x64) off00, View.ld_unit_zero (S := S10000x64) off00]
  rfl

end Cert.KernelIdeal.Hand

end
-- ==== Proof.KI.RunB.lean ====
import proofs.«118310_g48206712930318_cont_8to1_c_213_2_alg».proof.Proof.KI.Rows
import Idealize.ShloMosaic.Lib.Pipeline.Value

/-!
  The body at a point of the first phase other than the first (`0 < t < 25`). Only its second conditional runs: it loads
  the point's row block of the adjacency, the first scratch array whole, the first bias row and the second weight matrix,
  and stores the 400 rows it computes over rows `[400 t, 400 t + 400)` of the second scratch array. Every other buffer,
  the two results' staging blocks among them, is handed back as it was found.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runB (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬isFirst i) (hc1 : inPhase1 i) (hc2 : ¬inPhase2 i)
    (x0 : Vec F S10000x128 .f32) (x1 : Vec F S400x10000 .f32) (x2 : Vec F S128x128 .f32) (x3 : Vec F S1x128 .f32) (x4 : Vec F S128x64 .f32) (x5 : Vec F S1x64 .f32) (d7 d8 : Vec F S400x64 .f32) (xs0 : Vec F S10000x128 .f32) (xs1 : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ owns (c : Thread nD τ) arg9 fullShare xs0 ∗ owns (c : Thread nD τ) arg10 fullShare (storeRows arg10 harg10 i hc1 xs1 (k0_pay2 x1 xs0 x3 x4))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr; · ipureintro; exact harg9.read_unread _
    iexact HS0
  iexists _; isplitr; swap; · iexact HS1
  ipureintro
  unfold storeRows
  simp only [View.readAt_eq_ld, harg1.read_unread, harg2.read_unread, harg3.read_unread, harg4.read_unread, harg5.read_unread, harg6.read_unread, harg9.read_unread, harg10.read_unread, View.ld_unit_zero (S := S10000x128) off00, View.ld_unit_zero (S := S400x10000) off00, View.ld_unit_zero (S := S128x128) off00, View.ld_unit_zero (S := S1x128) off00, View.ld_unit_zero (S := S128x64) off00, View.ld_unit_zero (S := S1x64) off00, View.ld_unit_zero (S := S10000x64) off00]

end Cert.KernelIdeal.Hand

end
-- ==== Proof.KI.RunC.lean ====
import proofs.«118310_g48206712930318_cont_8to1_c_213_2_alg».proof.Proof.KI.Rows
import Idealize.ShloMosaic.Lib.Pipeline.Value

/-!
  The body at a point of the second phase (`t ≥ 25`). Only its third conditional runs: it loads the point's row block of
  the adjacency, the second scratch array whole and the second bias row, and stores the block's log-softmax rows into the
  first result's staging block and its softmax rows into the second's, each through the whole block. Every other buffer is
  handed back as it was found.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runC (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S400x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬isFirst i) (hc1 : ¬inPhase1 i) (hc2 : inPhase2 i)
    (x0 : Vec F S10000x128 .f32) (x1 : Vec F S400x10000 .f32) (x2 : Vec F S128x128 .f32) (x3 : Vec F S1x128 .f32) (x4 : Vec F S128x64 .f32) (x5 : Vec F S1x64 .f32) (xs0 : Vec F S10000x128 .f32) (xs1 : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay7 x1 xs1 x5) ∗ owns (c : Thread nD τ) arg8 fullShare (k0_pay6 x1 xs1 x5) ∗ owns (c : Thread nD τ) arg9 fullShare xs0 ∗ owns (c : Thread nD τ) arg10 fullShare xs1) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    rw [View.read_writes_eq_canon _ _ _ (fun y => ⟨_, List.mem_singleton_self _, View.mem_set_unit_zero off00 inb_S400x64_S400x64_0_0 y⟩), View.canon_unit_zero off00]
    simp only [View.readAt_eq_ld, harg2.read_unread, harg10.read_unread, harg6.read_unread, View.ld_unit_zero (S := S400x10000) off00, View.ld_unit_zero (S := S10000x64) off00, View.ld_unit_zero (S := S1x64) off00]
  isplitl [H7]
  · iexists _; isplitr; swap; · iexact H7
    ipureintro
    rw [View.read_writes_eq_canon _ _ _ (fun y => ⟨_, List.mem_singleton_self _, View.mem_set_unit_zero off00 inb_S400x64_S400x64_0_0 y⟩), View.canon_unit_zero off00]
    simp only [View.readAt_eq_ld, harg2.read_unread, harg10.read_unread, harg6.read_unread, View.ld_unit_zero (S := S400x10000) off00, View.ld_unit_zero (S := S10000x64) off00, View.ld_unit_zero (S := S1x64) off00]
  isplitl [HS0]
  · iexists _; isplitr; · ipureintro; exact harg9.read_unread _
    iexact HS0
  iexists _; isplitr; · ipureintro; exact harg10.read_unread _
  iexact HS1

end Cert.KernelIdeal.Hand

end
-- ==== Proof.KI.Body.lean ====
import proofs.«118310_g48206712930318_cont_8to1_c_213_2_alg».proof.Proof.KI.RunA
import proofs.«118310_g48206712930318_cont_8to1_c_213_2_alg».proof.Proof.KI.RunB
import proofs.«118310_g48206712930318_cont_8to1_c_213_2_alg».proof.Proof.KI.RunC

/-!
  The body at every grid point, against the proof data. Which of its three conditionals run is decided by the point: the
  first point, a later first-phase point, a second-phase point. In the first phase the two results' staging blocks are
  handed back as they were found (nothing writes them back there); the invariant takes the second scratch array back with
  the point's rows added. In the second phase the second scratch array holds every first-phase point's rows, so it IS the
  function `supp2`, and the point's result blocks are that function's softmax and log-softmax rows.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (stg0 t) fullShare ((dats m 0 c).after 0 t) from by
    unfold Dat.leavesExact; rw [live0 t], after_0]
  rw [show (dats m 0 c).leavesExact 1 t = owns (c : Thread nD τ) (stg1 t) fullShare ((dats m 0 c).after 1 t) from by
    unfold Dat.leavesExact; rw [live1 t], after_1]
  rw [show (dats m 0 c).leavesExact 2 t = owns (c : Thread nD τ) (stg2 t) fullShare ((dats m 0 c).after 2 t) from by
    unfold Dat.leavesExact; rw [live2 t], after_2]
  rw [show (dats m 0 c).leavesExact 3 t = owns (c : Thread nD τ) (stg3 t) fullShare ((dats m 0 c).after 3 t) from by
    unfold Dat.leavesExact; rw [live3 t], after_3]
  rw [show (dats m 0 c).leavesExact 4 t = owns (c : Thread nD τ) (stg4 t) fullShare ((dats m 0 c).after 4 t) from by
    unfold Dat.leavesExact; rw [live4 t], after_4]
  rw [show (dats m 0 c).leavesExact 5 t = owns (c : Thread nD τ) (stg5 t) fullShare ((dats m 0 c).after 5 t) from by
    unfold Dat.leavesExact; rw [live5 t], after_5]
  have hN : t.val < 50 := lt_of_lt_of_eq t.isLt (show cfg0.N = 50 from N_0)
  by_cases h1 : t.val < 25
  · -- the first phase: the results' blocks are idle and not written back
    have hc1 : inPhase1 (grid0.coords t) := (inPhase1_iff t).mpr h1
    have hc2 : ¬inPhase2 (grid0.coords t) := fun h => absurd ((inPhase2_iff t).mp h) (by omega)
    rw [(dats m 0 c).leavesExact_idle 6 t ((idle6_iff t).mpr h1) (Bool.eq_false_iff.mpr fun h => absurd ((flush6_iff t).mp h) (by omega))]
    rw [(dats m 0 c).leavesExact_idle 7 t ((idle7_iff t).mpr h1) (Bool.eq_false_iff.mpr fun h => absurd ((flush7_iff t).mp h) (by omega))]
    by_cases hz : t.val = 0
    · -- the first point
      have hc0 : isFirst (grid0.coords t) := (isFirst_iff t).mpr hz
      rw [Phi_castSucc m c t, Phi_zero m c _ _ hz, PhiA_eq]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr0 (Memref.isWhole_whole _) scr1 (Memref.isWhole_whole _) hc0 hc1 hc2 (iblk m c 0 t) (iblk m c 1 t) (iblk m c 2 t) (iblk m c 3 t) (iblk m c 4 t) (iblk m c 5 t) ((dats m 0 c).before 6 t d6) ((dats m 0 c).before 7 t d7) ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · have e : t = t₀ := Fin.ext hz
            rw [show supp1 m c = k0_pay1 (iblk m c 0 t) (iblk m c 2 t) from by rw [e]; rfl]
            iexact HS0
          iexists _; isplitr; swap; · iexact HS1
          ipureintro
          have e : t = t₀ := Fin.ext hz
          have hs : k0_pay2 (iblk m c 1 t) (k0_pay1 (iblk m c 0 t) (iblk m c 2 t)) (iblk m c 3 t) (iblk m c 4 t) = supp2Rows m c t := by
            rw [e]; rfl
          rw [hs]
          exact filled_zero m c scr1 _ t hz hc1 ds1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · -- a later point of the first phase
      have hc0 : ¬isFirst (grid0.coords t) := fun h => hz ((isFirst_iff t).mp h)
      rw [Phi_castSucc m c t, Phi_pos m c _ _ hz]
      iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr0 (Memref.isWhole_whole _) scr1 (Memref.isWhole_whole _) hc0 hc1 hc2 (iblk m c 0 t) (iblk m c 1 t) (iblk m c 2 t) (iblk m c 3 t) (iblk m c 4 t) (iblk m c 5 t) ((dats m 0 c).before 6 t d6) ((dats m 0 c).before 7 t d7) (supp1 m c) ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexact HS0
          iexists _; isplitr; swap; · iexact HS1
          ipureintro
          exact filled_step m c scr1 _ t h1 hc1 ds1 hds1 hz
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · -- the second phase: the results' blocks are stored whole
    have h2 : 25 ≤ t.val := by omega
    have hz : t.val ≠ 0 := by omega
    have hc0 : ¬isFirst (grid0.coords t) := fun h => hz ((isFirst_iff t).mp h)
    have hc1 : ¬inPhase1 (grid0.coords t) := fun h => h1 ((inPhase1_iff t).mp h)
    have hc2 : inPhase2 (grid0.coords t) := (inPhase2_iff t).mpr h2
    rw [show (dats m 0 c).leavesExact 6 t = owns (c : Thread nD τ) (stg6 t) fullShare ((dats m 0 c).after 6 t) from by
      unfold Dat.leavesExact; rw [Bool.eq_false_iff.mpr fun h => h1 ((idle6_iff t).mp h)], after_6]
    rw [show (dats m 0 c).leavesExact 7 t = owns (c : Thread nD τ) (stg7 t) fullShare ((dats m 0 c).after 7 t) from by
      unfold Dat.leavesExact; rw [Bool.eq_false_iff.mpr fun h => h1 ((idle7_iff t).mp h)], after_7]
    unfold outLS outSM
    rw [Phi_castSucc m c t, Phi_pos m c _ _ hz]
    iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : ds1 = supp2 m c := eq_supp2_of_filled m c (t.val - 1) (by omega) ds1 hds1
    iapply (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr0 (Memref.isWhole_whole _) scr1 (Memref.isWhole_whole _) hc0 hc1 hc2 (iblk m c 0 t) (iblk m c 1 t) (iblk m c 2 t) (iblk m c 3 t) (iblk m c 4 t) (iblk m c 5 t) (supp1 m c) (supp2 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexists _; isplitr; swap; · iexact HS1
        ipureintro
        exact filled_mono m c (t.val - 1) t.val (by omega) _ hds1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives it back: what the scratch arrays hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 50 := N_0; omega), PhiA_eq]
  iintro ⟨⟨HS0, ⟨%d, -, HS1⟩⟩, Hg⟩
  isplitl [HS0 HS1]
  · isplitl [HS0]
    · iexists _; iexact HS0
    iexists _; iexact HS1
  iexact Hg

end Cert.KernelIdeal.Hand

end
-- ==== Proof.KI.Run.lean ====
import proofs.«118310_g48206712930318_cont_8to1_c_213_2_alg».proof.Proof.KI.Body

/-!
  The launch: with the proof data's arrays the region-entry contents, the body's obligation at every point, and the
  invariant yielded by and yielding back what the launch hands the region, every weakly fair execution of the program
  terminates without a fault, each window's array ending at the contents the proof data computes — an argument at its
  entry contents, a result at its entry contents overwritten block by block by what the second-phase points left.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KI.Final.lean ====
import proofs.«118310_g48206712930318_cont_8to1_c_213_2_alg».proof.Proof.KI.Data
import Idealize.ShloMosaic.Lib.Pipeline.Value
import Idealize.ShloMosaic.Lib.ValueIdx

/-!
  From the blocks to the arrays. The two results are written back at the second phase's points only, point `t ≥ 25`
  writing the row block `t − 25`; these 25 blocks of 400 rows tile the 10000 rows. So each result array ends as ONE
  function of its index: row `r`, column `q` is row `r % 400`, column `q` of what point `25 + r / 400` left.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A row of the 10000 lies in one of 25 row blocks, so its second-phase point is below 50. -/
theorem out_point_lt (idx : S10000x64.Idx) : 25 + (idx 0).val / 400 < cfg0.N := by
  have h : (idx 0).val < 10000 := ValueIdx.idx2_lt0 idx
  have hN : cfg0.N = 50 := N_0
  omega

/-- The second-phase point that writes the row's block. -/
abbrev outPoint (idx : S10000x64.Idx) : Fin cfg0.N := ⟨25 + (idx 0).val / 400, out_point_lt idx⟩

/-- The first result as one function of its index. -/
def finalLS (c : Dev nD) : Vec F S10000x64 .f32 := fun idx => outLS m c (outPoint idx) (rowLocal idx)

/-- The second result likewise. -/
def finalSM (c : Dev nD) : Vec F S10000x64 .f32 := fun idx => outSM m c (outPoint idx) (rowLocal idx)

/-! ## The printed index map of the two results, decided once over the grid -/

/-- At a second-phase point `t` the first result's block index is `(t − 25, 0)`. -/
theorem index6_eq : ∀ t : Fin cfg0.N, 25 ≤ t.val → win0_6.index t (0 : Fin 2) = t.val - 25 ∧ win0_6.index t (1 : Fin 2) = 0 :=
  (by decide +kernel : ∀ t : Fin grid0.N, 25 ≤ t.val → win0_6.index t (0 : Fin 2) = t.val - 25 ∧ win0_6.index t (1 : Fin 2) = 0)

/-- The second result's likewise. -/
theorem index7_eq : ∀ t : Fin cfg0.N, 25 ≤ t.val → win0_7.index t (0 : Fin 2) = t.val - 25 ∧ win0_7.index t (1 : Fin 2) = 0 :=
  (by decide +kernel : ∀ t : Fin grid0.N, 25 ≤ t.val → win0_7.index t (0 : Fin 2) = t.val - 25 ∧ win0_7.index t (1 : Fin 2) = 0)

/-! ## An array index inside a second-phase point's row block -/

/-- Row `400 (t − 25) + p` with `p < 400` belongs to point `t`, … -/
theorem outPoint_eq (t : Fin cfg0.N) (ht : 25 ≤ t.val) (y : S400x64.Idx) (idx : S10000x64.Idx)
    (h0 : (idx 0).val = (t.val - 25) * 400 + 1 * (y 0).val) : outPoint idx = t := by
  have hy : (y 0).val < 400 := ValueIdx.idx2_lt0 y
  apply Fin.ext
  show 25 + (idx 0).val / 400 = t.val
  omega

/-- … and its place within the block is `p`, with the column. -/
theorem rowLocal_eq (t : Fin cfg0.N) (y : S400x64.Idx) (idx : S10000x64.Idx)
    (h0 : (idx 0).val = (t.val - 25) * 400 + 1 * (y 0).val) (h1 : (idx 1).val = 0 * 64 + 1 * (y 1).val) :
    rowLocal idx = y := by
  have hy : (y 0).val < 400 := ValueIdx.idx2_lt0 y
  funext a
  match a with
  | ⟨0, _⟩ => exact Fin.ext (by show (idx 0).val % 400 = (y 0).val; omega)
  | ⟨1, _⟩ => exact Fin.ext (by show (idx 1).val = (y 1).val; omega)

/-! ## What a second-phase point writes back is its block of the one function -/

/-- Point `t ≥ 25` writes back block `t` of `finalLS`. -/
theorem flushed6_eq (c : Dev nD) (t : Fin cfg0.N) (ht : 25 ≤ t.val) :
    (dats m 0 c).flushed 6 t = ((cfg0.win 6).blk t).view.read (Elt F) (finalLS m c) := by
  show (cfg0.win 6).cut (grid0.coords t) ((dats m 0 c).after 6 t) = _
  rw [after_6]
  obtain ⟨e0, e1⟩ := index6_eq t ht
  funext y
  show outLS m c t y = outLS m c (outPoint (((cfg0.win 6).blk t).view.emb y)) (rowLocal (((cfg0.win 6).blk t).view.emb y))
  have h0 : ((((cfg0.win 6).blk t).view.emb y) 0).val = (t.val - 25) * 400 + 1 * (y 0).val := by
    show win0_6.index t (0 : Fin 2) * 400 + 1 * (y 0).val = _
    rw [e0]
  have h1 : ((((cfg0.win 6).blk t).view.emb y) 1).val = 0 * 64 + 1 * (y 1).val := by
    show win0_6.index t (1 : Fin 2) * 64 + 1 * (y 1).val = _
    rw [e1]
  rw [outPoint_eq t ht y _ h0, rowLocal_eq t y _ h0 h1]

/-- Point `t ≥ 25` writes back block `t` of `finalSM`. -/
theorem flushed7_eq (c : Dev nD) (t : Fin cfg0.N) (ht : 25 ≤ t.val) :
    (dats m 0 c).flushed 7 t = ((cfg0.win 7).blk t).view.read (Elt F) (finalSM m c) := by
  show (cfg0.win 7).cut (grid0.coords t) ((dats m 0 c).after 7 t) = _
  rw [after_7]
  obtain ⟨e0, e1⟩ := index7_eq t ht
  funext y
  show outSM m c t y = outSM m c (outPoint (((cfg0.win 7).blk t).view.emb y)) (rowLocal (((cfg0.win 7).blk t).view.emb y))
  have h0 : ((((cfg0.win 7).blk t).view.emb y) 0).val = (t.val - 25) * 400 + 1 * (y 0).val := by
    show win0_7.index t (0 : Fin 2) * 400 + 1 * (y 0).val = _
    rw [e0]
  have h1 : ((((cfg0.win 7).blk t).view.emb y) 1).val = 0 * 64 + 1 * (y 1).val := by
    show win0_7.index t (1 : Fin 2) * 64 + 1 * (y 1).val = _
    rw [e1]
  rw [outPoint_eq t ht y _ h0, rowLocal_eq t y _ h0 h1]

/-! ## The 25 row blocks tile the 10000 rows -/

/-- An index of the array is in point `t`'s block iff each coordinate is in the block's range on its axis. -/
theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v2_0).slice (win0_6.rect t)).set ↔ _
  rw [View.set_slice_whole, Rect.mem_set_unit]
  exact Iff.rfl

theorem mem_blk7 (t : Fin cfg0.N) (i : S10000x64.Idx) :
    i ∈ ((cfg0.win 7).blk t).view.set ↔ ∀ a : Fin 2, win0_7.index t a * S400x64.size a ≤ (i a).val ∧ (i a).val < win0_7.index t a * S400x64.size a + S400x64.size a := by
  show i ∈ ((View.whole main_v2_1).slice (win0_7.rect t)).set ↔ _
  rw [View.set_slice_whole, Rect.mem_set_unit]
  exact Iff.rfl

/-- Every index of the first result lies in the block its second-phase point writes back. -/
theorem cover6 (i : S10000x64.Idx) :
    ∃ t : Fin cfg0.N, (cfg0.win 6).flush t = true ∧ i ∈ ((cfg0.win 6).blk t).view.set := by
  have hv : (outPoint i).val = 25 + (i 0).val / 400 := rfl
  have ht : 25 ≤ (outPoint i).val := by omega
  have hi1 : (i 1).val < 64 := ValueIdx.idx2_lt1 i
  obtain ⟨e0, e1⟩ := index6_eq (outPoint i) ht
  refine ⟨outPoint i, (flush6_iff _).2 ht, ?_⟩
  rw [mem_blk6]
  intro a
  match a with
  | ⟨0, _⟩ => show win0_6.index (outPoint i) (0 : Fin 2) * 400 ≤ (i 0).val ∧ (i 0).val < win0_6.index (outPoint i) (0 : Fin 2) * 400 + 400; omega
  | ⟨1, _⟩ => show win0_6.index (outPoint i) (1 : Fin 2) * 64 ≤ (i 1).val ∧ (i 1).val < win0_6.index (outPoint i) (1 : Fin 2) * 64 + 64; omega

/-- Every index of the second result likewise. -/
theorem cover7 (i : S10000x64.Idx) :
    ∃ t : Fin cfg0.N, (cfg0.win 7).flush t = true ∧ i ∈ ((cfg0.win 7).blk t).view.set := by
  have hv : (outPoint i).val = 25 + (i 0).val / 400 := rfl
  have ht : 25 ≤ (outPoint i).val := by omega
  have hi1 : (i 1).val < 64 := ValueIdx.idx2_lt1 i
  obtain ⟨e0, e1⟩ := index7_eq (outPoint i) ht
  refine ⟨outPoint i, (flush7_iff _).2 ht, ?_⟩
  rw [mem_blk7]
  intro a
  match a with
  | ⟨0, _⟩ => show win0_7.index (outPoint i) (0 : Fin 2) * 400 ≤ (i 0).val ∧ (i 0).val < win0_7.index (outPoint i) (0 : Fin 2) * 400 + 400; omega
  | ⟨1, _⟩ => show win0_7.index (outPoint i) (1 : Fin 2) * 64 ≤ (i 1).val ∧ (i 1).val < win0_7.index (outPoint i) (1 : Fin 2) * 64 + 64; omega

/-! ## The two arrays after the run -/

/-- After the run the first result's array holds `finalLS`. -/
theorem final6 (c : Dev nD) : (dats m 0 c).arrAt 6 cfg0.N = finalLS m c :=
  (dats m 0 c).arrAt_eq_of_cover 6 (finalLS m c) (fun t hf => flushed6_eq m c t ((flush6_iff t).1 hf)) cover6

/-- After the run the second result's array holds `finalSM`. -/
theorem final7 (c : Dev nD) : (dats m 0 c).arrAt 7 cfg0.N = finalSM m c :=
  (dats m 0 c).arrAt_eq_of_cover 7 (finalSM m c) (fun t hf => flushed7_eq m c t ((flush7_iff t).1 hf)) cover7

end Cert.KernelIdeal.Hand

end
-- ==== Proof.Spec.lean ====
import Idealize.ShloMosaic.PureOps.Ideal
import Idealize.ShloMosaic.PureOps.Ideal.Laws
import Idealize.ShloMosaic.Lib.ValueIdx
import Mathlib.Data.Finset.Fold

/-!
  The two-layer graph convolution, written once, index by index, over the extended reals.

  For node features `x` (10000 × 128), a dense adjacency `a` (10000 × 10000), weights `w1` (128 × 128), `w2` (128 × 64)
  and biases `b1` (128), `b2` (64):

    support₁ = x · w1,   hidden = max (a · support₁ + b1) 0,   support₂ = hidden · w2,   logits = a · support₂ + b2,

  and per row `r` of the logits: the row maximum `M r`, the shifted row `z r j = logits r j − M r`, its exponentials
  `e r j = exp (z r j)` and their sum `Z r`. The two results are the softmax `e r j / Z r` and the log-softmax
  `z r j − log (Z r)`. Every sum is a finite sum over the contracted coordinate, so neither its order nor its grouping into
  row blocks is part of the definition.
-/

noncomputable section

open scoped BigOperators

namespace Cert.Gcn

open Idealize.ShloMosaic Idealize.ShloMosaic.ValueIdx

/-- The arrays' index types, by their literal extents. -/
abbrev IxX : Type := (⟨2, ![10000, 128]⟩ : Shape).Idx
abbrev IxA : Type := (⟨2, ![10000, 10000]⟩ : Shape).Idx
abbrev IxW1 : Type := (⟨2, ![128, 128]⟩ : Shape).Idx
abbrev IxB1 : Type := (⟨1, ![128]⟩ : Shape).Idx
abbrev IxW2 : Type := (⟨2, ![128, 64]⟩ : Shape).Idx
abbrev IxB2 : Type := (⟨1, ![64]⟩ : Shape).Idx
abbrev IxO : Type := (⟨2, ![10000, 64]⟩ : Shape).Idx

/-- The value the row maximum starts from: the f32 pattern of −∞, kept as its word on both sides. -/
abbrev negInf : EReal := Ideal.ofBits .f32 0xFF800000#32

section
variable (x : IxX → EReal) (a : IxA → EReal) (w1 : IxW1 → EReal) (b1 : IxB1 → EReal) (w2 : IxW2 → EReal) (b2 : IxB2 → EReal)

/-- `x · w1` at row `r`, column `j`. -/
def support1 (r : Fin 10000) (j : Fin 128) : EReal := ∑ k : Fin 128, x (ix2 r k) * w1 (ix2 k j)

/-- `max (a · support₁ + b1) 0` at row `r`, column `j`: the first layer after its rectifier. -/
def hidden (r : Fin 10000) (j : Fin 128) : EReal :=
  max ((∑ k : Fin 10000, a (ix2 r k) * support1 x w1 k j) + b1 (ix1 j)) 0

/-- `hidden · w2` at row `r`, column `j`. -/
def support2 (r : Fin 10000) (j : Fin 64) : EReal := ∑ k : Fin 128, hidden x a w1 b1 r k * w2 (ix2 k j)

/-- `a · support₂ + b2` at row `r`, column `j`: the second layer's logits. -/
def logits (r : Fin 10000) (j : Fin 64) : EReal :=
  (∑ k : Fin 10000, a (ix2 r k) * support2 x a w1 b1 w2 k j) + b2 (ix1 j)

/-- The maximum of row `r` of the logits (a fold of `max` from −∞ over the row's 64 columns). -/
def rowMax (r : Fin 10000) : EReal :=
  (Finset.univ : Finset (Fin 64)).fold max negInf (fun j => logits x a w1 b1 w2 b2 r j)

/-- The logits less their row's maximum. -/
def shifted (r : Fin 10000) (j : Fin 64) : EReal := logits x a w1 b1 w2 b2 r j - rowMax x a w1 b1 w2 b2 r

/-- The exponential of the shifted logits. -/
def expShifted (r : Fin 10000) (j : Fin 64) : EReal := Ideal.exp (shifted x a w1 b1 w2 b2 r j)

/-- The sum of row `r`'s exponentials: the softmax's denominator. -/
def rowSum (r : Fin 10000) : EReal := ∑ j : Fin 64, expShifted x a w1 b1 w2 b2 r j

/-- The softmax of the logits along each row. -/
def softmax : IxO → EReal := fun i =>
  Ideal.div (expShifted x a w1 b1 w2 b2 (i 0) (i 1)) (rowSum x a w1 b1 w2 b2 (i 0))

/-- The log-softmax of the logits along each row. -/
def logSoftmax : IxO → EReal := fun i =>
  shifted x a w1 b1 w2 b2 (i 0) (i 1) - Ideal.log (rowSum x a w1 b1 w2 b2 (i 0))

end

/-- A fold of `max` from `b` is at least `b`, so taking the maximum with `b` once more changes nothing. -/
theorem max_fold_max_self {ι : Type*} (s : Finset ι) (b : EReal) (f : ι → EReal) :
    max b (s.fold max b f) = s.fold max b f :=
  max_eq_right ((Finset.le_fold_max b).mpr (Or.inl le_rfl))

end Cert.Gcn

end
-- ==== Proof.LibBroadcastColumn.lean ====
/-
  A column spread over columns, read at an entry: for any extents `a`, `b` and any element type, an `[a, 1]` array
  broadcast to `[a, b]` holds, at row `p` and column `c`, the column's entry `p`. (The row form, `[1, b]` to
  `[a, b]`, is the library's `broadcastTo_1b_ab_apply`.)
-/
import Idealize.ShloMosaic.Lib.ValueIdx
import Idealize.ShloMosaic.Lib.Pipeline.Value

namespace Cert.LibBroadcastColumn

open Idealize.ShloMosaic Idealize.ShloMosaic.ValueIdx

/-- An `[a, 1]` column broadcast to `[a, b]` reads, at `(p, c)`, the column's entry `p`: the broadcast keeps an
    operand axis of extent one at coordinate 0 and every other axis at the result's coordinate, and when `a` itself is
    one the only row index is 0 either way. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibBroadcastColumn
-- ==== Proof.KI.PayAt.lean ====
import proofs.«118310_g48206712930318_cont_8to1_c_213_2_alg».proof.Proof.Gen.KernelIdeal.Skeleton
import proofs.«118310_g48206712930318_cont_8to1_c_213_2_alg».proof.Proof.Spec
import proofs.«118310_g48206712930318_cont_8to1_c_213_2_alg».proof.Proof.LibBroadcastColumn
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

/-!
  The kernel body's seven pure terms, each read at one index of its block, over the extended reals.
  A matrix product into a zero accumulator is the finite sum over the contracted coordinate; a bias row `[1, n]` broadcast
  down the block's rows reads the row's entry; a lane maximum is a fold of `max` from −∞ over the 64 columns, a lane sum a
  finite sum over them; a column `[400, 1]` broadcast along the rows reads the column's entry.
-/

set_option maxRecDepth 16384

noncomputable section

open scoped BigOperators

namespace Cert.KernelIdeal.Hand

open Cert.KernelIdeal Cert.KernelIdeal.Gen
open Idealize.ShloMosaic Idealize.ShloMosaic.ValueIdx

/-! ## The four matrix products, each at an entry

For a product of an `m × K` by a `K × n` matrix the left operand is read at (row, contracted coordinate) and the
right one at (contracted coordinate, column); the sum over the one contracted axis is re-indexed by its coordinate. -/

/-! ### `x · w1`: 10000 × 128 by 128 × 128 -/

theorem lhs_xw_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_xw_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_xw_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_xw_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- The product into a zero accumulator at row `r`, column `j`: the sum over the 128 contracted coordinates. -/
theorem prod_xw_at (u : FVec Ideal S10000x128 .f32) (w : FVec Ideal S128x128 .f32) (r : Fin 10000) (j : Fin 128) :
    matmul dot_S10000x128_S128x128_S10000x128_1_0_0_1_n_n none u w (constant (F := Ideal) S10000x128 .f32 0x00000000#32) (ix2 r j)
      = ∑ k : Fin 128, u (ix2 r k) * w (ix2 k j) := by
  refine (Ideal.matmul_constant_zero_apply dot_S10000x128_S128x128_S10000x128_1_0_0_1_n_n none u w (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun a => Fin.ext (by
    match a with
    | ⟨0, _⟩ => exact lhs_xw_0 _ _
    | ⟨1, _⟩ => exact (lhs_xw_1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun a => Fin.ext (by
    match a with
    | ⟨0, _⟩ => exact (rhs_xw_0 _ _).trans hk
    | ⟨1, _⟩ => exact rhs_xw_1 _ _)
  rw [el, er]

/-- `x · w1`: the first point's store into the first scratch array. -/
theorem pay1_at (x : FVec Ideal S10000x128 .f32) (w1 : FVec Ideal S128x128 .f32) (r : Fin 10000) (j : Fin 128) :
    k0_pay1 (F := Ideal) x w1 (ix2 r j) = ∑ k : Fin 128, x (ix2 r k) * w1 (ix2 k j) := by
  unfold k0_pay1
  rw [shapeCast_self]
  exact prod_xw_at x w1 r j

/-! ### A row block of the adjacency times the first support: 400 × 10000 by 10000 × 128 -/

theorem lhs_as1_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_as1_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_as1_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_as1_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- The product into a zero accumulator at row `r`, column `j`: the sum over the 10000 contracted coordinates. -/
theorem prod_as1_at (u : FVec Ideal S400x10000 .f32) (w : FVec Ideal S10000x128 .f32) (r : Fin 400) (j : Fin 128) :
    matmul dot_S400x10000_S10000x128_S400x128_1_0_0_1_n_n none u w (constant (F := Ideal) S400x128 .f32 0x00000000#32) (ix2 r j)
      = ∑ k : Fin 10000, u (ix2 r k) * w (ix2 k j) := by
  refine (Ideal.matmul_constant_zero_apply dot_S400x10000_S10000x128_S400x128_1_0_0_1_n_n none u w (ix2 r j)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r j) ((contrEquiv1 dot_S400x10000_S10000x128_S400x128_1_0_0_1_n_n 10000 rfl rfl).symm k) = ix2 r k := funext fun a => Fin.ext (by
    match a with
    | ⟨0, _⟩ => exact lhs_as1_0 _ _
    | ⟨1, _⟩ => exact (lhs_as1_1 _ _).trans hk)
  have er : dot_S400x10000_S10000x128_S400x128_1_0_0_1_n_n.rhsIdx (ix2 r j) ((contrEquiv1 dot_S400x10000_S10000x128_S400x128_1_0_0_1_n_n 10000 rfl rfl).symm k) = ix2 k j := funext fun a => Fin.ext (by
    match a with
    | ⟨0, _⟩ => exact (rhs_as1_0 _ _).trans hk
    | ⟨1, _⟩ => exact rhs_as1_1 _ _)
  rw [el, er]

/-! ### The rectified hidden block times `w2`: 400 × 128 by 128 × 64 -/

theorem lhs_hw_0 (i : S400x64.Idx) (q : dot_S400x128_S128x64_S400x64_1_0_0_1_n_n.contr.Idx) :
    (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
theorem lhs_hw_1 (i : S400x64.Idx) (q : dot_S400x128_S128x64_S400x64_1_0_0_1_n_n.contr.Idx) :
    (dot_S400x128_S128x64_S400x64_1_0_0_1_n_n.lhsIdx i q 1).val = (q ⟨0, by decide⟩).val :=
  dot_S400x128_S128x64_S400x64_1_0_0_1_n_n.lhsIdx_val_of_single rfl i q
theorem rhs_hw_0 (i : S400x64.Idx) (q : dot_S400x128_S128x64_S400x64_1_0_0_1_n_n.contr.Idx) :
    (dot_S400x128_S128x64_S400x64_1_0_0_1_n_n.rhsIdx i q 0).val = (q ⟨0, by decide⟩).val :=
  dot_S400x128_S128x64_S400x64_1_0_0_1_n_n.rhsIdx_val_of_single rfl i q
theorem rhs_hw_1 (i : S400x64.Idx) (q : dot_S400x128_S128x64_S400x64_1_0_0_1_n_n.contr.Idx) :
    (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl
/-- The product into a zero accumulator at row `r`, column `j`: the sum over the 128 contracted coordinates. -/
theorem prod_hw_at (u : FVec Ideal S400x128 .f32) (w : FVec Ideal S128x64 .f32) (r : Fin 400) (j : Fin 64) :
    matmul dot_S400x128_S128x64_S400x64_1_0_0_1_n_n none u w (constant (F := Ideal) S400x64 .f32 0x00000000#32) (ix2 r j)
      = ∑ k : Fin 128, u (ix2 r k) * w (ix2 k j) := by
  refine (Ideal.matmul_constant_zero_apply dot_S400x128_S128x64_S400x64_1_0_0_1_n_n none u w (ix2 r j)).trans ?_
  rw [← Equiv.sum_comp (contrEquiv1 dot_S400x128_S128x64_S400x64_1_0_0_1_n_n 128 rfl rfl).symm]
  refine Finset.sum_congr rfl fun k _ => ?_
  have hk := contrEquiv1_symm_val dot_S400x128_S128x64_S400x64_1_0_0_1_n_n 128 rfl rfl k
  have el : dot_S400x128_S128x64_S400x64_1_0_0_1_n_n.lhsIdx (ix2 r j) ((contrEquiv1 dot_S400x128_S128x64_S400x64_1_0_0_1_n_n 128 rfl rfl).symm k) = ix2 r k := funext fun a => Fin.ext (by
    match a with
    | ⟨0, _⟩ => exact lhs_hw_0 _ _
    | ⟨1, _⟩ => exact (lhs_hw_1 _ _).trans hk)
  have er : dot_S400x128_S128x64_S400x64_1_0_0_1_n_n.rhsIdx (ix2 r j) ((contrEquiv1 dot_S400x128_S128x64_S400x64_1_0_0_1_n_n 128 rfl rfl).symm k) = ix2 k j := funext fun a => Fin.ext (by
    match a with
    | ⟨0, _⟩ => exact (rhs_hw_0 _ _).trans hk
    | ⟨1, _⟩ => exact rhs_hw_1 _ _)
  rw [el, er]

/-! ### A row block of the adjacency times the second support: 400 × 10000 by 10000 × 64 -/

theorem lhs_as2_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_as2_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_as2_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_as2_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl
/-- The product into a zero accumulator at row `r`, column `j`: the sum over the 10000 contracted coordinates. -/
theorem prod_as2_at (u : FVec Ideal S400x10000 .f32) (w : FVec Ideal S10000x64 .f32) (r : Fin 400) (j : Fin 64) :
    matmul dot_S400x10000_S10000x64_S400x64_1_0_0_1_n_n none u w (constant (F := Ideal) S400x64 .f32 0x00000000#32) (ix2 r j)
      = ∑ k : Fin 10000, u (ix2 r k) * w (ix2 k j) := by
  refine (Ideal.matmul_constant_zero_apply dot_S400x10000_S10000x64_S400x64_1_0_0_1_n_n none u w (ix2 r j)).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 r j) ((contrEquiv1 dot_S400x10000_S10000x64_S400x64_1_0_0_1_n_n 10000 rfl rfl).symm k) = ix2 r k := funext fun a => Fin.ext (by
    match a with
    | ⟨0, _⟩ => exact lhs_as2_0 _ _
    | ⟨1, _⟩ => exact (lhs_as2_1 _ _).trans hk)
  have er : dot_S400x10000_S10000x64_S400x64_1_0_0_1_n_n.rhsIdx (ix2 r j) ((contrEquiv1 dot_S400x10000_S10000x64_S400x64_1_0_0_1_n_n 10000 rfl rfl).symm k) = ix2 k j := funext fun a => Fin.ext (by
    match a with
    | ⟨0, _⟩ => exact (rhs_as2_0 _ _).trans hk
    | ⟨1, _⟩ => exact rhs_as2_1 _ _)
  rw [el, er]

/-! ## Columns: a vector made a one-column matrix, and a lane reduction read at a row -/

/-- An `[a]` array cast to `[a, 1]` reads, at `(i, u)`, the operand at `i`: both sit at row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Over row `p` of the result of a reduction along the columns, the source index with column `k` put back is `(p, k)`. -/
theorem lift_row (h : S400x64.Reduces [1] S400) (p : Fin 400) (k : Fin 64) : h.lift (ix1 p) k = ix2 p k :=
  funext fun c => Fin.ext (by
    match c with
    | ⟨0, _⟩ => rfl
    | ⟨1, _⟩ => rfl)

/-- A lane maximum at row `p`: the fold of `max` from −∞ over the row's 64 entries. -/
theorem laneMax_at (v : FVec Ideal S400x64 .f32) (h : S400x64.Reduces [1] S400) (hφ : FKind.Formats .f32)
    (hacc : (0xFF800000#32 : BitVec FTy.f32.bits) = FKind.maximumf.neutral .f32 hφ) (p : Fin 400) :
    multiReduction (F := Ideal) .maximumf [1] S400 v 0xFF800000#32 h hφ hacc (ix1 p)
      = (Finset.univ : Finset (Fin 64)).fold max Cert.Gcn.negInf (fun q => v (ix2 p q)) := by
  refine (Ideal.multiReduction_maximumf_single v 0xFF800000#32 h hφ hacc (ix1 p)).trans ?_
  rw [Ideal.ofBits_def]
  exact congrArg (fun f : Fin 64 → EReal => (Finset.univ : Finset (Fin 64)).fold max Cert.Gcn.negInf f)
    (funext fun k => congrArg v (lift_row h p k))

/-- A lane sum at row `p`: the sum of the row's 64 entries. -/
theorem laneSum_at (v : FVec Ideal S400x64 .f32) (h : S400x64.Reduces [1] S400) (hφ : FKind.Formats .f32)
    (hacc : (0x00000000#32 : BitVec FTy.f32.bits) = FKind.add.neutral .f32 hφ) (p : Fin 400) :
    multiReduction (F := Ideal) .add [1] S400 v 0x00000000#32 h hφ hacc (ix1 p) = ∑ q : Fin 64, v (ix2 p q) := by
  refine (Ideal.multiReduction_add_single v 0x00000000#32 h hφ hacc (ix1 p)).trans ?_
  exact Finset.sum_congr rfl fun k _ => congrArg v (lift_row h p k)

/-- A block less its rows' maxima, the maxima kept as a column and spread back over the 64 columns. -/
theorem subRowMax_at (v : FVec Ideal S400x64 .f32) (h : S400x64.Reduces [1] S400) (hφ : FKind.Formats .f32)
    (hacc : (0xFF800000#32 : BitVec FTy.f32.bits) = FKind.maximumf.neutral .f32 hφ) (hc : S400.ShapeCasts S400x1)
    (hb : S400x1.Broadcasts S400x64) (p : Fin 400) (q : Fin 64) :
    subf v (broadcastTo S400x64 (shapeCast S400x1 (multiReduction (F := Ideal) .maximumf [1] S400 v 0xFF800000#32 h hφ hacc) hc) hb) (ix2 p q)
      = v (ix2 p q) - (Finset.univ : Finset (Fin 64)).fold max Cert.Gcn.negInf (fun q' => v (ix2 p q')) := by
  rw [subf_apply]
  refine congrArg (fun t => v (ix2 p q) - t) ?_
  refine (Cert.LibBroadcastColumn.broadcastTo_a1_ab_apply _ hb p q).trans ?_
  refine (shapeCast_a_a1_apply _ hc p 0).trans ?_
  exact laneMax_at v h hφ hacc p

/-- A first-phase point's 400 rows: `max (aᵦ · s1 + b1) 0 · w2` for the point's row block `aᵦ` of the adjacency. -/
theorem pay2_at (ab : FVec Ideal S400x10000 .f32) (s1 : FVec Ideal S10000x128 .f32) (b1r : FVec Ideal S1x128 .f32)
    (w2 : FVec Ideal S128x64 .f32) (p : Fin 400) (q : Fin 64) :
    k0_pay2 (F := Ideal) ab s1 b1r w2 (ix2 p q)
      = ∑ k : Fin 128, max ((∑ k' : Fin 10000, ab (ix2 p k') * s1 (ix2 k' k)) + b1r (ix2 (0 : Fin 1) k)) 0 * w2 (ix2 k q) := by
  unfold k0_pay2
  rw [shapeCast_self]
  refine (prod_hw_at _ w2 p q).trans ?_
  refine Finset.sum_congr rfl fun k _ => congrArg (fun t => t * w2 (ix2 k q)) ?_
  rw [maximumf_apply, addf_apply, broadcast_apply, prod_as1_at, broadcastTo_1b_ab_apply, shapeCast_self]
  show max _ (Ideal.ofBits .f32 0x00000000#32) = _
  rw [Ideal.ofBits_zero_f32]

section Block
variable (ab : FVec Ideal S400x10000 .f32) (s2 : FVec Ideal S10000x64 .f32) (b2r : FVec Ideal S1x64 .f32)

/-- A second-phase point's logits at row `p` of its block, column `q`. -/
def blkLogit (p : Fin 400) (q : Fin 64) : EReal :=
  (∑ k : Fin 10000, ab (ix2 p k) * s2 (ix2 k q)) + b2r (ix2 (0 : Fin 1) q)

/-- The maximum of the block's row `p`. -/
def blkMax (p : Fin 400) : EReal :=
  (Finset.univ : Finset (Fin 64)).fold max Cert.Gcn.negInf (fun q => blkLogit ab s2 b2r p q)

/-- The exponential of the logits less their row's maximum. -/
def blkExp (p : Fin 400) (q : Fin 64) : EReal := Ideal.exp (blkLogit ab s2 b2r p q - blkMax ab s2 b2r p)

/-- The sum of the block's row `p` of exponentials. -/
def blkSum (p : Fin 400) : EReal := ∑ q : Fin 64, blkExp ab s2 b2r p q

/-- The block's logits as one array: the product with the bias row added to every row. -/
theorem logit_at (hcr : S1x64.ShapeCasts S1x64) (hbr : S1x64.Broadcasts S400x64) (p : Fin 400) (q : Fin 64) :
    addf (matmul dot_S400x10000_S10000x64_S400x64_1_0_0_1_n_n none ab s2 (constant (F := Ideal) S400x64 .f32 0x00000000#32))
        (broadcastTo S400x64 (shapeCast S1x64 b2r hcr) hbr) (ix2 p q)
      = blkLogit ab s2 b2r p q := by
  rw [addf_apply, prod_as2_at, broadcastTo_1b_ab_apply, shapeCast_self]
  rfl

theorem pay3_at (p : Fin 400) (q : Fin 64) :
    k0_pay3 (F := Ideal) ab s2 b2r (ix2 p q) = blkLogit ab s2 b2r p q - blkMax ab s2 b2r p := by
  unfold k0_pay3
  refine (subRowMax_at _ _ _ _ _ _ p q).trans ?_
  unfold blkMax
  rw [logit_at ab s2 b2r _ _ p q]
  exact congrArg (fun f : Fin 64 → EReal => blkLogit ab s2 b2r p q - (Finset.univ : Finset (Fin 64)).fold max Cert.Gcn.negInf f)
    (funext fun q' => logit_at ab s2 b2r _ _ p q')

theorem pay4_at (p : Fin 400) (q : Fin 64) : k0_pay4 (F := Ideal) ab s2 b2r (ix2 p q) = blkExp ab s2 b2r p q := by
  show Ideal.exp (k0_pay3 (F := Ideal) ab s2 b2r (ix2 p q)) = _
  rw [pay3_at]
  rfl

theorem pay5_at (p : Fin 400) : k0_pay5 (F := Ideal) ab s2 b2r (ix2 p (0 : Fin 1)) = blkSum ab s2 b2r p := by
  unfold k0_pay5
  refine (shapeCast_a_a1_apply _ _ p 0).trans ?_
  refine (laneSum_at _ _ _ _ p).trans ?_
  exact Finset.sum_congr rfl fun q _ => pay4_at ab s2 b2r p q

/-- The softmax rows. -/
theorem pay6_at (p : Fin 400) (q : Fin 64) :
    k0_pay6 (F := Ideal) ab s2 b2r (ix2 p q) = Ideal.div (blkExp ab s2 b2r p q) (blkSum ab s2 b2r p) := by
  unfold k0_pay6
  rw [divf_apply, pay4_at, Cert.LibBroadcastColumn.broadcastTo_a1_ab_apply, pay5_at]

/-- The log-softmax rows. -/
theorem pay7_at (p : Fin 400) (q : Fin 64) :
    k0_pay7 (F := Ideal) ab s2 b2r (ix2 p q)
      = (blkLogit ab s2 b2r p q - blkMax ab s2 b2r p) - Ideal.log (blkSum ab s2 b2r p) := by
  unfold k0_pay7
  rw [subf_apply, pay3_at, Cert.LibBroadcastColumn.broadcastTo_a1_ab_apply]
  show _ - Ideal.log (k0_pay5 (F := Ideal) ab s2 b2r (ix2 p (0 : Fin 1))) = _
  rw [pay5_at]

end Block

end Cert.KernelIdeal.Hand

end
-- ==== Proof.KI.ValueIdeal.lean ====
import proofs.«118310_g48206712930318_cont_8to1_c_213_2_alg».proof.Proof.KI.Final
import proofs.«118310_g48206712930318_cont_8to1_c_213_2_alg».proof.Proof.KI.PayAt
import proofs.«118310_g48206712930318_cont_8to1_c_213_2_alg».proof.Proof.Spec
import Idealize.ShloMosaic.Lib.Pipeline.Value
import Idealize.ShloMosaic.Lib.StableHlo.Run
import Idealize.ShloMosaic.Lib.ValueIdx

/-!
  The kernel's two result arrays are the specification's functions, over the extended reals.

  Every block the kernel reads is a window onto one of the six argument arrays: an entry of a block sits in its array, on
  each axis, at the block's index times the block's size plus its own coordinate. The features, the two weight matrices
  and the two biases are read whole (block index 0 on both axes); the adjacency is read by row blocks of 400, point `t`
  reading row block `t mod 25`; the two biases reach the kernel as rows `[1, n]` of the vectors `[n]`. With the blocks read
  entry by entry, the first scratch array is `x · w1`, the second is `max (a · (x · w1) + b1) 0 · w2` row by row (row `r`
  being row `r mod 400` of the point `r / 400`), a second-phase point's logits are rows `400 (t − 25) + p` of
  `a · support₂ + b2`, and the two results are the log-softmax and the softmax of those rows.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## Where each window's block sits in its array -/

/-- The features, both weight matrices and both bias rows are read whole: block index 0 on both axes at every point. -/
theorem index_resident : ∀ t : Fin cfg0.N,
    (win0_0.index t (0 : Fin 2) = 0 ∧ win0_0.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N,
    (win0_0.index t (0 : Fin 2) = 0 ∧ win0_0.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0))

/-- The adjacency is read by row blocks: point `t` reads row block `t mod 25`, all columns. -/
theorem index_adj : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)

/-! ## The blocks, entry by entry -/

/-- The features' block is the features. -/
theorem xBlk_at (c : Dev nD) (t : Fin cfg0.N) (r : Fin 10000) (k : Fin 128) :
    xBlk m c t (ix2 r k) = m ((c : Thread nD τ).loc main_arg0) (ix2 r k) := by
  obtain ⟨⟨e0, e1⟩, -⟩ := index_resident t
  show V m c main_arg0 (((cfg0.win 0).blk t).view.emb (ix2 r k)) = _
  rw [V_main_arg0]
  refine congrArg _ (funext fun a => Fin.ext ?_)
  match a with
  | ⟨0, _⟩ => show win0_0.index t (0 : Fin 2) * 10000 + 1 * r.val = r.val; omega
  | ⟨1, _⟩ => show win0_0.index t (1 : Fin 2) * 128 + 1 * k.val = k.val; omega

/-- Row `p` of point `t`'s adjacency block is row `400 (t mod 25) + p` of the adjacency. -/
theorem aBlk_at (c : Dev nD) (t : Fin cfg0.N) (p : Fin 400) (k : Fin 10000) (r : Fin 10000)
    (hr : r.val = 400 * (t.val % 25) + p.val) :
    aBlk m c t (ix2 p k) = m ((c : Thread nD τ).loc main_arg1) (ix2 r k) := by
  obtain ⟨e0, e1⟩ := index_adj t
  show V m c main_arg1 (((cfg0.win 1).blk t).view.emb (ix2 p k)) = _
  rw [V_main_arg1]
  refine congrArg _ (funext fun a => Fin.ext ?_)
  match a with
  | ⟨0, _⟩ => show win0_1.index t (0 : Fin 2) * 400 + 1 * p.val = r.val; omega
  | ⟨1, _⟩ => show win0_1.index t (1 : Fin 2) * 10000 + 1 * k.val = k.val; omega

/-- The first weight matrix's block is the matrix. -/
theorem w1Blk_at (c : Dev nD) (t : Fin cfg0.N) (k : Fin 128) (j : Fin 128) :
    w1Blk m c t (ix2 k j) = m ((c : Thread nD τ).loc main_arg2) (ix2 k j) := by
  obtain ⟨-, ⟨e0, e1⟩, -⟩ := index_resident t
  show V m c main_arg2 (((cfg0.win 2).blk t).view.emb (ix2 k j)) = _
  rw [V_main_arg2]
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- The second weight matrix's block is the matrix. -/
theorem w2Blk_at (c : Dev nD) (t : Fin cfg0.N) (k : Fin 128) (j : Fin 64) :
    w2Blk m c t (ix2 k j) = m ((c : Thread nD τ).loc main_arg4) (ix2 k j) := by
  obtain ⟨-, -, -, ⟨e0, e1⟩, -⟩ := index_resident t
  show V m c main_arg4 (((cfg0.win 4).blk t).view.emb (ix2 k j)) = _
  rw [V_main_arg4]
  refine congrArg _ (funext fun a => Fin.ext ?_)
  match a with
  | ⟨0, _⟩ => show win0_4.index t (0 : Fin 2) * 128 + 1 * k.val = k.val; omega
  | ⟨1, _⟩ => show win0_4.index t (1 : Fin 2) * 64 + 1 * j.val = j.val; omega

/-- The first bias reaches the region as the row `[1, 128]` of the vector `[128]`. -/
theorem V_bias1 (c : Dev nD) : (V m c main_v0 : S1x128.Idx → EReal)
    = shapeCast S1x128 (m ((c : Thread nD τ).loc main_arg3)) shapeCasts_S128_S1x128 := by
  dsimp only [Gen.V, Gen.hostOps0]; after_results; rfl

/-- The second bias reaches the region as the row `[1, 64]` of the vector `[64]`. -/
theorem V_bias2 (c : Dev nD) : (V m c main_v1 : S1x64.Idx → EReal)
    = shapeCast S1x64 (m ((c : Thread nD τ).loc main_arg5)) shapeCasts_S64_S1x64 := by
  dsimp only [Gen.V, Gen.hostOps0]; after_results; rfl

/-- The first bias row's entry `k` is the bias vector's entry `k`. -/
theorem b1Blk_at (c : Dev nD) (t : Fin cfg0.N) (k : Fin 128) :
    b1Blk m c t (ix2 (0 : Fin 1) k) = m ((c : Thread nD τ).loc main_arg3) (ix1 k) := by
  obtain ⟨-, -, ⟨e0, e1⟩, -⟩ := index_resident t
  show V m c main_v0 (((cfg0.win 3).blk t).view.emb (ix2 (0 : Fin 1) k)) = _
  have hemb : ((cfg0.win 3).blk t).view.emb (ix2 (0 : Fin 1) k) = ix2 (0 : Fin 1) k := by
    funext a; apply Fin.ext
    match a with
    | ⟨0, _⟩ => show win0_3.index t (0 : Fin 2) * 1 + 1 * 0 = 0; omega
    | ⟨1, _⟩ => show win0_3.index t (1 : Fin 2) * 128 + 1 * k.val = k.val; omega
  rw [hemb]
  refine (congrFun (V_bias1 m c) _).trans ?_
  refine shapeCast_apply _ _ _ (ix1 k) ?_
  rw [Shape.rowMajor_val_one, Shape.rowMajor_val_two]
  show k.val = 0 * 128 + k.val
  omega

/-- The second bias row's entry `q` is the bias vector's entry `q`. -/
theorem b2Blk_at (c : Dev nD) (t : Fin cfg0.N) (q : Fin 64) :
    b2Blk m c t (ix2 (0 : Fin 1) q) = m ((c : Thread nD τ).loc main_arg5) (ix1 q) := by
  obtain ⟨-, -, -, -, ⟨e0, e1⟩⟩ := index_resident t
  show V m c main_v1 (((cfg0.win 5).blk t).view.emb (ix2 (0 : Fin 1) q)) = _
  have hemb : ((cfg0.win 5).blk t).view.emb (ix2 (0 : Fin 1) q) = ix2 (0 : Fin 1) q := by
    funext a; apply Fin.ext
    match a with
    | ⟨0, _⟩ => show win0_5.index t (0 : Fin 2) * 1 + 1 * 0 = 0; omega
    | ⟨1, _⟩ => show win0_5.index t (1 : Fin 2) * 64 + 1 * q.val = q.val; omega
  rw [hemb]
  refine (congrFun (V_bias2 m c) _).trans ?_
  refine shapeCast_apply _ _ _ (ix1 q) ?_
  rw [Shape.rowMajor_val_one, Shape.rowMajor_val_two]
  show q.val = 0 * 64 + q.val
  omega

/-! ## The body's terms of blocks that agree with the arrays, entry by entry -/

section OverBlocks
variable (X : Cert.Gcn.IxX → EReal) (A : Cert.Gcn.IxA → EReal) (W1 : Cert.Gcn.IxW1 → EReal) (B1 : Cert.Gcn.IxB1 → EReal)
  (W2 : Cert.Gcn.IxW2 → EReal) (B2 : Cert.Gcn.IxB2 → EReal)

/-- The first product of blocks that are the features and the first weights is `x · w1`. -/
theorem support1_of_blocks (x : FVec Ideal S10000x128 .f32) (w1 : FVec Ideal S128x128 .f32)
    (hx : ∀ (r : Fin 10000) (k : Fin 128), x (ix2 r k) = X (ix2 r k))
    (hw : ∀ (k : Fin 128) (j : Fin 128), w1 (ix2 k j) = W1 (ix2 k j)) (r : Fin 10000) (j : Fin 128) :
    k0_pay1 (F := Ideal) x w1 (ix2 r j) = Cert.Gcn.support1 X W1 r j := by
  rw [pay1_at]
  unfold Cert.Gcn.support1
  exact Finset.sum_congr rfl fun k _ => by rw [hx, hw]

/-- A first-phase point's row `p`, when its adjacency block's row `p` is the adjacency's row `r`, is row `r` of
    `max (a · (x · w1) + b1) 0 · w2`. -/
theorem support2_of_blocks (ab : FVec Ideal S400x10000 .f32) (s1 : FVec Ideal S10000x128 .f32)
    (b1r : FVec Ideal S1x128 .f32) (w2 : FVec Ideal S128x64 .f32) (p : Fin 400) (r : Fin 10000)
    (ha : ∀ k : Fin 10000, ab (ix2 p k) = A (ix2 r k))
    (hs : ∀ (k : Fin 10000) (j : Fin 128), s1 (ix2 k j) = Cert.Gcn.support1 X W1 k j)
    (hb : ∀ k : Fin 128, b1r (ix2 (0 : Fin 1) k) = B1 (ix1 k))
    (hw : ∀ (k : Fin 128) (j : Fin 64), w2 (ix2 k j) = W2 (ix2 k j)) (q : Fin 64) :
    k0_pay2 (F := Ideal) ab s1 b1r w2 (ix2 p q) = Cert.Gcn.support2 X A W1 B1 W2 r q := by
  rw [pay2_at]
  unfold Cert.Gcn.support2 Cert.Gcn.hidden
  refine Finset.sum_congr rfl fun k _ => ?_
  have hsum : (∑ k' : Fin 10000, ab (ix2 p k') * s1 (ix2 k' k))
      = ∑ k' : Fin 10000, A (ix2 r k') * Cert.Gcn.support1 X W1 k' k :=
    Finset.sum_congr rfl fun k' _ => by rw [ha, hs]
  rw [hsum, hb, hw]

section Rows
variable (ab : FVec Ideal S400x10000 .f32) (s2 : FVec Ideal S10000x64 .f32) (b2r : FVec Ideal S1x64 .f32)
  (p : Fin 400) (r : Fin 10000)
  (ha : ∀ k : Fin 10000, ab (ix2 p k) = A (ix2 r k))
  (hs : ∀ (k : Fin 10000) (j : Fin 64), s2 (ix2 k j) = Cert.Gcn.support2 X A W1 B1 W2 k j)
  (hb : ∀ q : Fin 64, b2r (ix2 (0 : Fin 1) q) = B2 (ix1 q))
include ha hs hb

/-- A second-phase point's logits at its row `p` are the logits' row `r`. -/
theorem blkLogit_eq (q : Fin 64) : blkLogit ab s2 b2r p q = Cert.Gcn.logits X A W1 B1 W2 B2 r q := by
  unfold blkLogit Cert.Gcn.logits
  have hsum : (∑ k : Fin 10000, ab (ix2 p k) * s2 (ix2 k q))
      = ∑ k : Fin 10000, A (ix2 r k) * Cert.Gcn.support2 X A W1 B1 W2 k q :=
    Finset.sum_congr rfl fun k _ => by rw [ha, hs]
  rw [hsum, hb]

/-- Its maximum is that row's maximum … -/
theorem blkMax_eq : blkMax ab s2 b2r p = Cert.Gcn.rowMax X A W1 B1 W2 B2 r := by
  unfold blkMax Cert.Gcn.rowMax
  exact congrArg (fun f => (Finset.univ : Finset (Fin 64)).fold max Cert.Gcn.negInf f)
    (funext fun q => blkLogit_eq X A W1 B1 W2 B2 ab s2 b2r p r ha hs hb q)

/-- … its exponentials that row's exponentials … -/
theorem blkExp_eq (q : Fin 64) : blkExp ab s2 b2r p q = Cert.Gcn.expShifted X A W1 B1 W2 B2 r q := by
  unfold blkExp Cert.Gcn.expShifted Cert.Gcn.shifted
  rw [blkLogit_eq X A W1 B1 W2 B2 ab s2 b2r p r ha hs hb q, blkMax_eq X A W1 B1 W2 B2 ab s2 b2r p r ha hs hb]

/-- … and their sum that row's sum. -/
theorem blkSum_eq : blkSum ab s2 b2r p = Cert.Gcn.rowSum X A W1 B1 W2 B2 r := by
  unfold blkSum Cert.Gcn.rowSum
  exact Finset.sum_congr rfl fun q _ => blkExp_eq X A W1 B1 W2 B2 ab s2 b2r p r ha hs hb q

/-- The log-softmax row the point leaves is that row's log-softmax. -/
theorem logSoftmax_of_blocks (q : Fin 64) :
    k0_pay7 (F := Ideal) ab s2 b2r (ix2 p q)
      = Cert.Gcn.shifted X A W1 B1 W2 B2 r q - Ideal.log (Cert.Gcn.rowSum X A W1 B1 W2 B2 r) := by
  unfold Cert.Gcn.shifted
  rw [pay7_at, blkLogit_eq X A W1 B1 W2 B2 ab s2 b2r p r ha hs hb q, blkMax_eq X A W1 B1 W2 B2 ab s2 b2r p r ha hs hb,
    blkSum_eq X A W1 B1 W2 B2 ab s2 b2r p r ha hs hb]

/-- The softmax row it leaves is that row's softmax. -/
theorem softmax_of_blocks (q : Fin 64) :
    k0_pay6 (F := Ideal) ab s2 b2r (ix2 p q)
      = Ideal.div (Cert.Gcn.expShifted X A W1 B1 W2 B2 r q) (Cert.Gcn.rowSum X A W1 B1 W2 B2 r) := by
  rw [pay6_at, blkExp_eq X A W1 B1 W2 B2 ab s2 b2r p r ha hs hb q, blkSum_eq X A W1 B1 W2 B2 ab s2 b2r p r ha hs hb]

end Rows

end OverBlocks

/-! ## The scratch arrays and the results over the argument arrays -/

/-- The six argument arrays as the launch hands them to the core. -/
abbrev argX (c : Dev nD) : Cert.Gcn.IxX → EReal := m ((c : Thread nD τ).loc main_arg0)
abbrev argA (c : Dev nD) : Cert.Gcn.IxA → EReal := m ((c : Thread nD τ).loc main_arg1)
abbrev argW1 (c : Dev nD) : Cert.Gcn.IxW1 → EReal := m ((c : Thread nD τ).loc main_arg2)
abbrev argB1 (c : Dev nD) : Cert.Gcn.IxB1 → EReal := m ((c : Thread nD τ).loc main_arg3)
abbrev argW2 (c : Dev nD) : Cert.Gcn.IxW2 → EReal := m ((c : Thread nD τ).loc main_arg4)
abbrev argB2 (c : Dev nD) : Cert.Gcn.IxB2 → EReal := m ((c : Thread nD τ).loc main_arg5)

/-- A row's place within its block of 400 rows, with its column, by coordinates. -/
theorem rowLocal_ix2 (r : Fin 10000) (q : Fin 64) :
    rowLocal (ix2 r q) = ix2 (⟨r.val % 400, Nat.mod_lt _ (by decide)⟩ : Fin 400) q := by
  funext a; match a with | ⟨0, _⟩ => rfl | ⟨1, _⟩ => rfl

/-- The first scratch array is `x · w1`. -/
theorem supp1_at (c : Dev nD) (r : Fin 10000) (j : Fin 128) :
    supp1 m c (ix2 r j) = Cert.Gcn.support1 (argX m c) (argW1 m c) r j := by
  unfold supp1
  exact support1_of_blocks (argX m c) (argW1 m c) (xBlk m c t₀) (w1Blk m c t₀) (xBlk_at m c t₀) (w1Blk_at m c t₀) r j

/-- The second scratch array is `max (a · (x · w1) + b1) 0 · w2`: row `r` is row `r mod 400` of the point `r / 400`, whose
    adjacency block starts at row `400 (r / 400)`. -/
theorem supp2_at (c : Dev nD) (r : Fin 10000) (q : Fin 64) :
    supp2 m c (ix2 r q) = Cert.Gcn.support2 (argX m c) (argA m c) (argW1 m c) (argB1 m c) (argW2 m c) r q := by
  have hr : r.val < 10000 := r.isLt
  show k0_pay2 (F := Ideal) (aBlk m c (rowPoint (ix2 r q))) (supp1 m c) (b1Blk m c (rowPoint (ix2 r q)))
      (w2Blk m c (rowPoint (ix2 r q))) (rowLocal (ix2 r q)) = _
  rw [rowLocal_ix2]
  exact support2_of_blocks (argX m c) (argA m c) (argW1 m c) (argB1 m c) (argW2 m c)
    (aBlk m c (rowPoint (ix2 r q))) (supp1 m c) (b1Blk m c (rowPoint (ix2 r q))) (w2Blk m c (rowPoint (ix2 r q)))
    ⟨r.val % 400, Nat.mod_lt _ (by decide)⟩ r
    (fun k => aBlk_at m c (rowPoint (ix2 r q)) ⟨r.val % 400, Nat.mod_lt _ (by decide)⟩ k r
      (by show r.val = 400 * ((r.val / 400) % 25) + r.val % 400; omega))
    (supp1_at m c) (b1Blk_at m c _) (w2Blk_at m c _) q

/-- The first result is the specification's log-softmax: row `r` is written by the point `25 + r / 400`, whose adjacency
    block starts at row `400 (r / 400)`. -/
theorem finalLS_eq (c : Dev nD) :
    finalLS (F := Ideal) m c = Cert.Gcn.logSoftmax (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  funext idx
  obtain ⟨r, q, rfl⟩ : ∃ (r : Fin 10000) (q : Fin 64), idx = ix2 r q := ⟨idx 0, idx 1, eq_ix2 idx⟩
  have hr : r.val < 10000 := r.isLt
  show k0_pay7 (F := Ideal) (aBlk m c (outPoint (ix2 r q))) (supp2 m c) (b2Blk m c (outPoint (ix2 r q))) (rowLocal (ix2 r q))
      = Cert.Gcn.shifted (argX m c) (argA m c) (argW1 m c) (argB1 m c) (argW2 m c) (argB2 m c) r q
        - Ideal.log (Cert.Gcn.rowSum (argX m c) (argA m c) (argW1 m c) (argB1 m c) (argW2 m c) (argB2 m c) r)
  rw [rowLocal_ix2]
  exact logSoftmax_of_blocks (argX m c) (argA m c) (argW1 m c) (argB1 m c) (argW2 m c) (argB2 m c)
    (aBlk m c (outPoint (ix2 r q))) (supp2 m c) (b2Blk m c (outPoint (ix2 r q))) ⟨r.val % 400, Nat.mod_lt _ (by decide)⟩ r
    (fun k => aBlk_at m c (outPoint (ix2 r q)) ⟨r.val % 400, Nat.mod_lt _ (by decide)⟩ k r
      (by show r.val = 400 * ((25 + r.val / 400) % 25) + r.val % 400; omega))
    (supp2_at m c) (b2Blk_at m c _) q

/-- The second result is the specification's softmax. -/
theorem finalSM_eq (c : Dev nD) :
    finalSM (F := Ideal) m c = Cert.Gcn.softmax (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  funext idx
  obtain ⟨r, q, rfl⟩ : ∃ (r : Fin 10000) (q : Fin 64), idx = ix2 r q := ⟨idx 0, idx 1, eq_ix2 idx⟩
  have hr : r.val < 10000 := r.isLt
  show k0_pay6 (F := Ideal) (aBlk m c (outPoint (ix2 r q))) (supp2 m c) (b2Blk m c (outPoint (ix2 r q))) (rowLocal (ix2 r q))
      = Ideal.div (Cert.Gcn.expShifted (argX m c) (argA m c) (argW1 m c) (argB1 m c) (argW2 m c) (argB2 m c) r q)
          (Cert.Gcn.rowSum (argX m c) (argA m c) (argW1 m c) (argB1 m c) (argW2 m c) (argB2 m c) r)
  rw [rowLocal_ix2]
  exact softmax_of_blocks (argX m c) (argA m c) (argW1 m c) (argB1 m c) (argW2 m c) (argB2 m c)
    (aBlk m c (outPoint (ix2 r q))) (supp2 m c) (b2Blk m c (outPoint (ix2 r q))) ⟨r.val % 400, Nat.mod_lt _ (by decide)⟩ r
    (fun k => aBlk_at m c (outPoint (ix2 r q)) ⟨r.val % 400, Nat.mod_lt _ (by decide)⟩ k r
      (by show r.val = 400 * ((25 + r.val / 400) % 25) + r.val % 400; omega))
    (supp2_at m c) (b2Blk_at m c _) q

end Cert.KernelIdeal.Hand

end
-- ==== Proof.KI.Value.lean ====
import proofs.«118310_g48206712930318_cont_8to1_c_213_2_alg».proof.Proof.KI.Run
import proofs.«118310_g48206712930318_cont_8to1_c_213_2_alg».proof.Proof.KI.ValueIdeal

/-!
  The idealized kernel's run with its two result arrays named: at the ideal instance every weakly fair execution
  terminates with the first result the log-softmax and the second the softmax of the two-layer graph convolution of the
  argument arrays (the specification's functions), the argument arrays unchanged. The result arrays are read off the
  launch's post: the blocks the second-phase points left tile each array, and each block is the specification's rows.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v2_0) = Cert.Gcn.logSoftmax (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v2_1) = Cert.Gcn.softmax (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 6).trans ((final6 m c).trans (finalLS_eq m c)),
      ((h c).1 7).trans ((final7 m c).trans (finalSM_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main (F := Ideal) m ρ)

end Cert.KernelIdeal.Hand

end
-- ==== Proof.RefValue.lean ====
import proofs.«118310_g48206712930318_cont_8to1_c_213_2_alg».proof.Proof.RefReadP
import proofs.«118310_g48206712930318_cont_8to1_c_213_2_alg».proof.Proof.Spec
import Idealize.ShloMosaic.PureOps.Reduce
import Idealize.ShloMosaic.PureOps.Ideal.Laws
import Idealize.ShloMosaic.Lib.ValueIdx
import Mathlib.Data.Finset.Fold
import Mathlib.Algebra.BigOperators.Group.Finset.Basic

/-!
  The reference program, read index by index, computes the two-layer graph convolution of the specification.

  Each operation of the reference is read at a coordinate pair `(r, j)`: a matrix product is the finite sum over the
  contracted coordinate, a broadcast reads its operand at the coordinates it keeps, a row reduction is the fold (for the
  maximum) or the sum (for the softmax's denominator) over the row's 64 columns. Composing these readings from the inputs
  outwards gives, in turn, `support₁`, `hidden`, `support₂`, the logits, their row maximum, the shifted logits, their
  exponentials and the row sums, and so the two results.
-/

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

section Stages

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ## The first layer -/

/-- `x · w1` reads row `r` of `x` against column `j` of `w1`. -/
theorem support1_at (r : Fin 10000) (j : Fin 128) :
    ReadP.val_main_v0 (F := Ideal) x0 x2 (ix2 r j) = Cert.Gcn.support1 x0 x2 r j := by
  rw [ReadP.val_main_v0_apply]
  unfold Cert.Gcn.support1
  refine Finset.sum_congr rfl fun k _ => ?_
  have el : ReadP.lidx_main_v0 (ix2 r j) k = ix2 r k :=
    funext fun a => Fin.ext (by match a with | ⟨0, _⟩ => rfl | ⟨1, _⟩ => rfl)
  have er : ReadP.ridx_main_v0 (ix2 r j) k = ix2 k j :=
    funext fun a => Fin.ext (by match a with | ⟨0, _⟩ => rfl | ⟨1, _⟩ => rfl)
  rw [el, er]

/-- `a · support₁` reads row `r` of `a` against column `j` of `support₁`. -/
theorem aggregate1_at (r : Fin 10000) (j : Fin 128) :
    ReadP.val_main_v1 (F := Ideal) x0 x1 x2 (ix2 r j)
      = ∑ k : Fin 10000, x1 (ix2 r k) * Cert.Gcn.support1 x0 x2 k j := by
  rw [ReadP.val_main_v1_apply]
  refine Finset.sum_congr rfl fun k _ => ?_
  have el : ReadP.lidx_main_v1 (ix2 r j) k = ix2 r k :=
    funext fun a => Fin.ext (by match a with | ⟨0, _⟩ => rfl | ⟨1, _⟩ => rfl)
  have er : ReadP.ridx_main_v1 (ix2 r j) k = ix2 k j :=
    funext fun a => Fin.ext (by match a with | ⟨0, _⟩ => rfl | ⟨1, _⟩ => rfl)
  rw [el, er, support1_at]

/-- The first bias, broadcast down the rows, reads `b1` at the column. -/
theorem bias1_at (r : Fin 10000) (j : Fin 128) :
    ReadP.val_main_v3 (F := Ideal) x3 (ix2 r j) = x3 (ix1 j) := by
  rw [ReadP.val_main_v3_apply, ReadP.val_main_v2_apply]
  exact congrArg x3 (funext fun a => Fin.ext (by match a with | ⟨0, _⟩ => rfl))

/-- The rectifier's zero, broadcast over the whole array. -/
theorem zero1_at (r : Fin 10000) (j : Fin 128) :
    ReadP.val_main_v5 (F := Ideal) (ix2 r j) = 0 := by
  rw [ReadP.val_main_v5_apply, ReadP.val_main_cst_apply, Ideal.ofBits_def, Ideal.ofBits_zero_f32]

/-- The first layer after its rectifier. -/
theorem hidden_at (r : Fin 10000) (j : Fin 128) :
    ReadP.val_main_v6 (F := Ideal) x0 x1 x2 x3 (ix2 r j) = Cert.Gcn.hidden x0 x1 x2 x3 r j := by
  rw [ReadP.val_main_v6_apply, ReadP.val_main_v4_apply, aggregate1_at, bias1_at, zero1_at,
    Ideal.addf_def, Ideal.maximumf_def]
  rfl

/-! ## The second layer -/

/-- `hidden · w2` reads row `r` of `hidden` against column `j` of `w2`. -/
theorem support2_at (r : Fin 10000) (j : Fin 64) :
    ReadP.val_main_v7 (F := Ideal) x0 x1 x2 x3 x4 (ix2 r j) = Cert.Gcn.support2 x0 x1 x2 x3 x4 r j := by
  rw [ReadP.val_main_v7_apply]
  unfold Cert.Gcn.support2
  refine Finset.sum_congr rfl fun k _ => ?_
  have el : ReadP.lidx_main_v7 (ix2 r j) k = ix2 r k :=
    funext fun a => Fin.ext (by match a with | ⟨0, _⟩ => rfl | ⟨1, _⟩ => rfl)
  have er : ReadP.ridx_main_v7 (ix2 r j) k = ix2 k j :=
    funext fun a => Fin.ext (by match a with | ⟨0, _⟩ => rfl | ⟨1, _⟩ => rfl)
  rw [el, er, hidden_at]

/-- `a · support₂` reads row `r` of `a` against column `j` of `support₂`. -/
theorem aggregate2_at (r : Fin 10000) (j : Fin 64) :
    ReadP.val_main_v8 (F := Ideal) x0 x1 x2 x3 x4 (ix2 r j)
      = ∑ k : Fin 10000, x1 (ix2 r k) * Cert.Gcn.support2 x0 x1 x2 x3 x4 k j := by
  rw [ReadP.val_main_v8_apply]
  refine Finset.sum_congr rfl fun k _ => ?_
  have el : ReadP.lidx_main_v8 (ix2 r j) k = ix2 r k :=
    funext fun a => Fin.ext (by match a with | ⟨0, _⟩ => rfl | ⟨1, _⟩ => rfl)
  have er : ReadP.ridx_main_v8 (ix2 r j) k = ix2 k j :=
    funext fun a => Fin.ext (by match a with | ⟨0, _⟩ => rfl | ⟨1, _⟩ => rfl)
  rw [el, er, support2_at]

/-- The second bias, broadcast down the rows, reads `b2` at the column. -/
theorem bias2_at (r : Fin 10000) (j : Fin 64) :
    ReadP.val_main_v10 (F := Ideal) x5 (ix2 r j) = x5 (ix1 j) := by
  rw [ReadP.val_main_v10_apply, ReadP.val_main_v9_apply]
  exact congrArg x5 (funext fun a => Fin.ext (by match a with | ⟨0, _⟩ => rfl))

/-- The second layer's logits. -/
theorem logits_at (r : Fin 10000) (j : Fin 64) :
    ReadP.val_main_v11 (F := Ideal) x0 x1 x2 x3 x4 x5 (ix2 r j) = Cert.Gcn.logits x0 x1 x2 x3 x4 x5 r j := by
  rw [ReadP.val_main_v11_apply, aggregate2_at, bias2_at, Ideal.addf_def]
  rfl

/-! ## A row's maximum -/

/-- The maximum-reduction along the columns, read at row `r`: the fold of `max`, from the initial value's element, over the
    row's 64 columns. -/
theorem rowMax_fold (x : S10000x64.Idx → EReal) (init : S_.Idx → EReal) (r : Fin 10000) :
    Host.reduce (FloatOps.maximumf (F := Ideal) (φ := .f32)) x init reducesTo_S10000x64_S10000_d1 h_S_ (ix1 r)
      = (Finset.univ : Finset (Fin 64)).fold max (init (Shape.Idx.first h_S_)) (fun j => x (ix2 r j)) := by
  rw [Host.reduce_eq_fold_single (FloatOps.maximumf (F := Ideal) (φ := .f32)) x init reducesTo_S10000x64_S10000_d1
    (by decide) h_S_ (ix1 r)]
  exact Finset.fold_congr fun k _ =>
    congrArg x (funext fun a => Fin.ext (by match a with | ⟨0, _⟩ => rfl | ⟨1, _⟩ => rfl))

/-- The row maximum the log-softmax subtracts: the maximum of −∞ with the fold from −∞ is the fold. -/
theorem rowMax_log_at (r : Fin 10000) :
    ReadP.val_main_call0_v2 (F := Ideal) x0 x1 x2 x3 x4 x5 (ix1 r) = Cert.Gcn.rowMax x0 x1 x2 x3 x4 x5 r := by
  rw [ReadP.val_main_call0_v2_apply, ReadP.val_main_call0_v1_apply, ReadP.val_main_call0_cst_0_apply]
  unfold ReadP.val_main_call0_v0
  rw [rowMax_fold, ReadP.val_main_call0_cst_apply, Ideal.maximumf_def, Ideal.ofBits_def, Cert.Gcn.max_fold_max_self]
  unfold Cert.Gcn.rowMax
  exact Finset.fold_congr fun j _ => logits_at x0 x1 x2 x3 x4 x5 r j

/-- The row maximum the softmax subtracts: the same fold. -/
theorem rowMax_soft_at (r : Fin 10000) :
    ReadP.val_main_v15 (F := Ideal) x0 x1 x2 x3 x4 x5 (ix1 r) = Cert.Gcn.rowMax x0 x1 x2 x3 x4 x5 r := by
  rw [ReadP.val_main_v15_apply, ReadP.val_main_v14_apply, ReadP.val_main_cst_1_apply]
  unfold ReadP.val_main_v13
  rw [rowMax_fold, ReadP.val_main_cst_0_apply, Ideal.maximumf_def, Ideal.ofBits_def, Cert.Gcn.max_fold_max_self]
  unfold Cert.Gcn.rowMax
  exact Finset.fold_congr fun j _ => logits_at x0 x1 x2 x3 x4 x5 r j

/-! ## The log-softmax -/

/-- The logits less their row's maximum. -/
theorem shifted_log_at (r : Fin 10000) (j : Fin 64) :
    ReadP.val_main_call0_v5 (F := Ideal) x0 x1 x2 x3 x4 x5 (ix2 r j) = Cert.Gcn.shifted x0 x1 x2 x3 x4 x5 r j := by
  have e : ReadP.idx_main_call0_v3 (ReadP.idx_main_call0_v4 (ix2 r j)) = ix1 r :=
    funext fun a => Fin.ext (by match a with | ⟨0, _⟩ => rfl)
  rw [ReadP.val_main_call0_v5_apply, ReadP.val_main_call0_v4_apply, ReadP.val_main_call0_v3_apply, e, rowMax_log_at,
    logits_at, Ideal.subf_def]
  rfl

/-- The exponential of the shifted logits. -/
theorem expShifted_log_at (r : Fin 10000) (j : Fin 64) :
    ReadP.val_main_call0_v6 (F := Ideal) x0 x1 x2 x3 x4 x5 (ix2 r j) = Cert.Gcn.expShifted x0 x1 x2 x3 x4 x5 r j := by
  rw [ReadP.val_main_call0_v6_apply, shifted_log_at, Ideal.hostUnary_exp_def]
  rfl

/-- The sum of a row's exponentials: the reduction starts from zero. -/
theorem rowSum_log_at (r : Fin 10000) :
    ReadP.val_main_call0_v7 (F := Ideal) x0 x1 x2 x3 x4 x5 (ix1 r) = Cert.Gcn.rowSum x0 x1 x2 x3 x4 x5 r := by
  rw [ReadP.val_main_call0_v7_apply, ReadP.val_main_call0_cst_1_apply, Ideal.ofBits_def, Ideal.ofBits_zero_f32, zero_add]
  unfold Cert.Gcn.rowSum
  refine Finset.sum_congr rfl fun k _ => ?_
  have e : ReadP.idx_main_call0_v7 (ix1 r) k = ix2 r k :=
    funext fun a => Fin.ext (by match a with | ⟨0, _⟩ => rfl | ⟨1, _⟩ => rfl)
  rw [e, expShifted_log_at]

/-- The log-softmax at `(r, j)`. -/
theorem logSoftmax_at (r : Fin 10000) (j : Fin 64) :
    ReadP.val_main_v12 (F := Ideal) x0 x1 x2 x3 x4 x5 (ix2 r j) = Cert.Gcn.logSoftmax x0 x1 x2 x3 x4 x5 (ix2 r j) := by
  have e : ReadP.idx_main_call0_v8 (ReadP.idx_main_call0_v10 (ix2 r j)) = ix1 r :=
    funext fun a => Fin.ext (by match a with | ⟨0, _⟩ => rfl)
  rw [ReadP.val_main_v12_apply, ReadP.val_main_call0_v10_apply, ReadP.val_main_call0_v9_apply,
    ReadP.val_main_call0_v8_apply, e, rowSum_log_at, shifted_log_at, Ideal.hostUnary_log_def, Ideal.subf_def]
  rfl

/-! ## The softmax -/

/-- The logits less their row's maximum, as the softmax computes them. -/
theorem shifted_soft_at (r : Fin 10000) (j : Fin 64) :
    ReadP.val_main_v18 (F := Ideal) x0 x1 x2 x3 x4 x5 (ix2 r j) = Cert.Gcn.shifted x0 x1 x2 x3 x4 x5 r j := by
  have e : ReadP.idx_main_v16 (ReadP.idx_main_v17 (ix2 r j)) = ix1 r :=
    funext fun a => Fin.ext (by match a with | ⟨0, _⟩ => rfl)
  rw [ReadP.val_main_v18_apply, ReadP.val_main_v17_apply, ReadP.val_main_v16_apply, e, rowMax_soft_at,
    logits_at, Ideal.subf_def]
  rfl

/-- The exponential of the shifted logits, as the softmax computes it. -/
theorem expShifted_soft_at (r : Fin 10000) (j : Fin 64) :
    ReadP.val_main_v19 (F := Ideal) x0 x1 x2 x3 x4 x5 (ix2 r j) = Cert.Gcn.expShifted x0 x1 x2 x3 x4 x5 r j := by
  rw [ReadP.val_main_v19_apply, shifted_soft_at, Ideal.hostUnary_exp_def]
  rfl

/-- The softmax's denominator. -/
theorem rowSum_soft_at (r : Fin 10000) :
    ReadP.val_main_v20 (F := Ideal) x0 x1 x2 x3 x4 x5 (ix1 r) = Cert.Gcn.rowSum x0 x1 x2 x3 x4 x5 r := by
  rw [ReadP.val_main_v20_apply, ReadP.val_main_cst_2_apply, Ideal.ofBits_def, Ideal.ofBits_zero_f32, zero_add]
  unfold Cert.Gcn.rowSum
  refine Finset.sum_congr rfl fun k _ => ?_
  have e : ReadP.idx_main_v20 (ix1 r) k = ix2 r k :=
    funext fun a => Fin.ext (by match a with | ⟨0, _⟩ => rfl | ⟨1, _⟩ => rfl)
  rw [e, expShifted_soft_at]

/-- The softmax at `(r, j)`. -/
theorem softmax_at (r : Fin 10000) (j : Fin 64) :
    ReadP.val_main_v23 (F := Ideal) x0 x1 x2 x3 x4 x5 (ix2 r j) = Cert.Gcn.softmax x0 x1 x2 x3 x4 x5 (ix2 r j) := by
  have e : ReadP.idx_main_v21 (ReadP.idx_main_v22 (ix2 r j)) = ix1 r :=
    funext fun a => Fin.ext (by match a with | ⟨0, _⟩ => rfl)
  rw [ReadP.val_main_v23_apply, ReadP.val_main_v22_apply, ReadP.val_main_v21_apply, e, rowSum_soft_at,
    expShifted_soft_at, Ideal.hostDivf_def]
  rfl

end Stages

/-! ## The two results of the run -/

/-- The run's first result is the log-softmax of the specification. -/
theorem out0_eq (m : (ℓ : Loc nD τ sig) → Buf (Elt Ideal) ℓ) (c : Dev nD) :
    Cert.ReferenceIdeal.RunP.res_out0 (F := Ideal) m c
      = Cert.Gcn.logSoftmax (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (ReadP.val_main_v12_eq (F := Ideal) m c).trans ?_
  funext i
  obtain ⟨r, j, rfl⟩ : ∃ (r : Fin 10000) (j : Fin 64), i = ix2 r j := ⟨i 0, i 1, eq_ix2 i⟩
  exact logSoftmax_at _ _ _ _ _ _ r j

/-- The run's second result is the softmax of the specification. -/
theorem out1_eq (m : (ℓ : Loc nD τ sig) → Buf (Elt Ideal) ℓ) (c : Dev nD) :
    Cert.ReferenceIdeal.RunP.res_out1 (F := Ideal) m c
      = Cert.Gcn.softmax (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (ReadP.val_main_v23_eq (F := Ideal) m c).trans ?_
  funext i
  obtain ⟨r, j, rfl⟩ : ∃ (r : Fin 10000) (j : Fin 64), i = ix2 r j := ⟨i 0, i 1, eq_ix2 i⟩
  exact softmax_at _ _ _ _ _ _ r j

end Cert.ReferenceIdeal.RefValue

end
-- ==== Proof.lean ====
/-
  A two-layer graph convolution with softmax and log-softmax outputs: the fused kernel against the plain reference.

  The kernel runs a grid of 50 points over row blocks of 400 rows of the adjacency. Its first 25 points compute
  `support₂ = max (a · (x · w1) + b1) 0 · w2` block by block into a scratch array (`x · w1` once, at the first point); its
  last 25 points compute the logits `a · support₂ + b2` of one row block each and store that block's log-softmax and
  softmax rows. The reference computes the same four matrix products whole and applies the two row-wise functions.
  Over the extended reals the two agree index by index: every matrix product is the finite sum over the contracted
  coordinate however it is blocked, the row maximum is a fold of `max` from −∞ on both sides, and the remaining
  operations are applied entry by entry in the same order. No law that needs finite operands is used, so the
  precondition is never opened.

  The three frames: each kernel program runs through the pipeline's launch with the body's obligation proved point by point
  (Proof/K and Proof/KI), and the reference's frame is its run with the results dropped. `preserves` has no conjunct: the
  idealization rewrote nothing. `algebraic`: the idealized kernel's run ends with both results at the specification's
  functions of its arguments (Proof/KI/Value.lean), the reference's run ends with both at the same functions of its own
  arguments (Proof/RefValue.lean), and the arguments agree.
-/
import proofs.«118310_g48206712930318_cont_8to1_c_213_2_alg».proof.Defs
import proofs.«118310_g48206712930318_cont_8to1_c_213_2_alg».proof.Proof.Gen.Kernel
import proofs.«118310_g48206712930318_cont_8to1_c_213_2_alg».proof.Proof.Gen.KernelIdeal
import proofs.«118310_g48206712930318_cont_8to1_c_213_2_alg».proof.Proof.Gen.ReferenceIdeal
import proofs.«118310_g48206712930318_cont_8to1_c_213_2_alg».proof.Proof.Gen.Pre_finite_inputs
import proofs.«118310_g48206712930318_cont_8to1_c_213_2_alg».proof.Proof.K.Run
import proofs.«118310_g48206712930318_cont_8to1_c_213_2_alg».proof.Proof.KI.Value
import proofs.«118310_g48206712930318_cont_8to1_c_213_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame: its run, with what the two results hold dropped. -/
theorem frame_ri : Cert.frame_ReferenceIdeal := fun m ρ _ =>
  (θ_run Cert.ReferenceIdeal.defs _ _).mono (fun _ h c => (h c).2.2)
    (Cert.ReferenceIdeal.RunP.run (F := Ideal) m ρ)

/-- Both programs end with the first result the log-softmax and the second the softmax of the graph convolution of
    arguments that agree. -/
theorem algebraic : Cert.algebraic_KernelIdeal_ReferenceIdeal := by
  intro m ρ m' ρ' _ hagree
  refine ⟨_, _, Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · refine (Cert.ReferenceIdeal.RefValue.out0_eq m' c).trans ?_
    rw [(hagree c).1, (hagree c).2.1, (hagree c).2.2.1, (hagree c).2.2.2.1, (hagree c).2.2.2.2.1, (hagree c).2.2.2.2.2]
  · refine (Cert.ReferenceIdeal.RefValue.out1_eq m' c).trans ?_
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
